-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x128 : Shape := ⟨3, ![2, 512, 128]⟩
abbrev S2x512x4 : Shape := ⟨3, ![2, 512, 4]⟩
abbrev S2x512x512 : Shape := ⟨3, ![2, 512, 512]⟩
abbrev S385x256 : Shape := ⟨2, ![385, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S2x512x128 : S_.BroadcastsInDim S2x512x128 (![] : Fin 0 → Fin S2x512x128.rank)
  reducesTo_S2x512x128_S_d0_1_2 : S2x512x128.ReducesTo [0, 1, 2] S_
  h_S_ : 0 < S_.numel
  bcast_S_S2x512x4 : S_.BroadcastsInDim S2x512x4 (![] : Fin 0 → Fin S2x512x4.rank)
  reducesTo_S2x512x4_S_d0_1_2 : S2x512x4.ReducesTo [0, 1, 2] S_
  bcast_S_S2x512x512 : S_.BroadcastsInDim S2x512x512 (![] : Fin 0 → Fin S2x512x512.rank)
  reducesTo_S2x512x512_S_d0_1_2 : S2x512x512.ReducesTo [0, 1, 2] S_
  bcast_S_S385x256 : S_.BroadcastsInDim S385x256 (![] : Fin 0 → Fin S385x256.rank)
  reducesTo_S385x256_S_d0_1 : S385x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S256x1 .f32) (main_arg8 : FVec F S1 .f32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x1 .f32) (main_arg8 : FVec F S1 .f32) (main_v13 : IVec S_ 1) (main_v16 : IVec S385x256 1) : IVec S_ 1 :=
  let main_c_5 : IVec S_ 1 := constantI S_ 1 1#1
  let main_v17 : IVec S_ 1 := (fun x v => Host.reduce IntOp.andi x v reducesTo_S385x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S2x512x128 .f32) (main_arg1 : FVec F S2x512x4 .f32) (main_arg2 : FVec F S2x512x512 .f32) (main_arg3 : FVec F S385x256 .f32) (main_arg4 : FVec F S256 .f32) (main_arg5 : FVec F S256x256 .f32) (main_arg6 : FVec F S256 .f32) (main_arg7 : FVec F S256x1 .f32) (main_arg8 : FVec F S1 .f32) : IVec S_ 1 :=
  let main_v0 : FVec F S2x512x128 .f32 := Host.absf main_arg0
  let main_cst : FVec F S_ .f32 := constant S_ .f32 0x7F800000#32
  let main_v1 : FVec F S2x512x128 .f32 := broadcastInDim S2x512x128 ![] bcast_S_S2x512x128 main_cst
  let main_v2 : IVec S2x512x128 1 := cmpf .olt main_v0 main_v1
  let main_c : IVec S_ 1 := constantI S_ 1 1#1
  let main_v3 : IVec S_ 1 := (fun x v => Host.reduce IntOp.andi x v reducesTo_S2x512x128_S_d0_1_2 h_S_) main_v2 main_c
  let main_v4 : FVec F S2x512x4 .f32 := Host.absf main_arg1
  let main_cst_0 : FVec F S_ .f32 := constant S_ .f32 0x7F800000#32
  let main_v5 : FVec F S2x512x4 .f32 := broadcastInDim S2x512x4 ![] bcast_S_S2x512x4 main_cst_0
  let main_v6 : IVec S2x512x4 1 := cmpf .olt main_v4 main_v5
  let main_c_1 : IVec S_ 1 := constantI S_ 1 1#1
  let main_v7 : IVec S_ 1 := (fun x v => Host.reduce IntOp.andi x v reducesTo_S2x512x4_S_d0_1_2 h_S_) main_v6 main_c_1
  let main_v8 : IVec S_ 1 := andi main_v3 main_v7
  let main_v9 : FVec F S2x512x512 .f32 := Host.absf main_arg2
  let main_cst_2 : FVec F S_ .f32 := constant S_ .f32 0x7F800000#32
  let main_v10 : FVec F S2x512x512 .f32 := broadcastInDim S2x512x512 ![] bcast_S_S2x512x512 main_cst_2
  let main_v11 : IVec S2x512x512 1 := cmpf .olt main_v9 main_v10
  let main_c_3 : IVec S_ 1 := constantI S_ 1 1#1
  let main_v12 : IVec S_ 1 := (fun x v => Host.reduce IntOp.andi x v reducesTo_S2x512x512_S_d0_1_2 h_S_) main_v11 main_c_3
  let main_v13 : IVec S_ 1 := andi main_v8 main_v12
  let main_v14 : FVec F S385x256 .f32 := Host.absf main_arg3
  let main_cst_4 : FVec F S_ .f32 := constant S_ .f32 0x7F800000#32
  let main_v15 : FVec F S385x256 .f32 := broadcastInDim S385x256 ![] bcast_S_S385x256 main_cst_4
  let main_v16 : IVec S385x256 1 := cmpf .olt main_v14 main_v15
  fn_part1 (F := F) main_arg4 main_arg5 main_arg6 main_arg7 main_arg8 main_v13 main_v16
-- ==== Kernel.lean ====
abbrev S2x512x128 : Shape := ⟨3, ![2, 512, 128]⟩
abbrev S2x512x4 : Shape := ⟨3, ![2, 512, 4]⟩
abbrev S2x512x512 : Shape := ⟨3, ![2, 512, 512]⟩
abbrev S385x256 : Shape := ⟨2, ![385, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S128x256 : Shape := ⟨2, ![128, 256]⟩
abbrev S1x256 : Shape := ⟨2, ![1, 256]⟩
abbrev S1x1 : Shape := ⟨2, ![1, 1]⟩
abbrev S1x32x128 : Shape := ⟨3, ![1, 32, 128]⟩
abbrev S1x128x128 : Shape := ⟨3, ![1, 128, 128]⟩
abbrev S32x128 : Shape := ⟨2, ![32, 128]⟩
abbrev S128x128 : Shape := ⟨2, ![128, 128]⟩
abbrev S32x256 : Shape := ⟨2, ![32, 256]⟩
abbrev S32x1x128 : Shape := ⟨3, ![32, 1, 128]⟩
abbrev S32x128x128 : Shape := ⟨3, ![32, 128, 128]⟩
abbrev S4096x128 : Shape := ⟨2, ![4096, 128]⟩
abbrev S4096x256 : Shape := ⟨2, ![4096, 256]⟩
abbrev S32x128x256 : Shape := ⟨3, ![32, 128, 256]⟩
abbrev S32x128x1 : Shape := ⟨3, ![32, 128, 1]⟩
abbrev S1x1x256 : Shape := ⟨3, ![1, 1, 256]⟩
abbrev S32x1x256 : Shape := ⟨3, ![32, 1, 256]⟩
abbrev S1x128x256 : Shape := ⟨3, ![1, 128, 256]⟩
abbrev S4096x1 : Shape := ⟨2, ![4096, 1]⟩
abbrev S_ : Shape := ⟨0, ![]⟩
abbrev S512x512 : Shape := ⟨2, ![512, 512]⟩
abbrev S1x512x512 : Shape := ⟨3, ![1, 512, 512]⟩

abbrev nBuf : Space → Nat
  | .hbm => 40
  | .vmem => 17
  | .smem => 0
  | _ => 0

abbrev bufTy : (tb : Table) → Fin (tcTables nBuf tb) → BufTy
  | .hbm, ⟨0, _⟩ => ⟨S2x512x128, .f32⟩
  | .hbm, ⟨1, _⟩ => ⟨S2x512x4, .f32⟩
  | .hbm, ⟨2, _⟩ => ⟨S2x512x512, .f32⟩
  | .hbm, ⟨3, _⟩ => ⟨S385x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S128x256, .f32⟩
  | .hbm, ⟨10, _⟩ => ⟨S128x256, .bf16⟩
  | .hbm, ⟨11, _⟩ => ⟨S128x256, .f32⟩
  | .hbm, ⟨12, _⟩ => ⟨S128x256, .bf16⟩
  | .hbm, ⟨13, _⟩ => ⟨S128x256, .f32⟩
  | .hbm, ⟨14, _⟩ => ⟨S128x256, .bf16⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S256x256, .bf16⟩
  | .hbm, ⟨19, _⟩ => ⟨S256x1, .bf16⟩
  | .hbm, ⟨20, _⟩ => ⟨S1x1, .f32⟩
  | .hbm, ⟨21, _⟩ => ⟨S2x512x512, .f32⟩
  | .hbm, ⟨22, _⟩ => ⟨S2x512x512, .f32⟩
  | .hbm, ⟨23, _⟩ => ⟨S2x512x512, .f32⟩
  | .hbm, ⟨24, _⟩ => ⟨S_, .f32⟩
  | .hbm, ⟨25, _⟩ => ⟨S2x512x512, .f32⟩
  | .hbm, ⟨26, _⟩ => ⟨S2x512x512, .f32⟩
  | .hbm, ⟨27, _⟩ => ⟨S512x512, .i32⟩
  | .hbm, ⟨28, _⟩ => ⟨S512x512, .i32⟩
  | .hbm, ⟨29, _⟩ => ⟨S_, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | .hbm, ⟨37, _⟩ => ⟨S1x512x512, .f32⟩
  | .hbm, ⟨38, _⟩ => ⟨S2x512x512, .f32⟩
  | .hbm, ⟨39, _⟩ => ⟨S2x512x512, .f32⟩
  | .local _ .vmem, ⟨0, _⟩ => ⟨S1x32x128, .f32⟩
  | .local _ .vmem, ⟨1, _⟩ => ⟨S1x32x128, .f32⟩
  | .local _ .vmem, ⟨2, _⟩ => ⟨S1x128x128, .f32⟩
  | .local _ .vmem, ⟨3, _⟩ => ⟨S1x128x128, .f32⟩
  | .local _ .vmem, ⟨4, _⟩ => ⟨S1x32x128, .f32⟩
  | .local _ .vmem, ⟨5, _⟩ => ⟨S1x32x128, .f32⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S1x256, .f32⟩
  | .local _ .vmem, ⟨10, _⟩ => ⟨S1x256, .f32⟩
  | .local _ .vmem, ⟨11, _⟩ => ⟨S256x256, .bf16⟩
  | .local _ .vmem, ⟨12, _⟩ => ⟨S1x256, .f32⟩
  | .local _ .vmem, ⟨13, _⟩ => ⟨S256x1, .bf16⟩
  | .local _ .vmem, ⟨14, _⟩ => ⟨S1x1, .f32⟩
  | .local _ .vmem, ⟨15, _⟩ => ⟨S1x32x128, .f32⟩
  | .local _ .vmem, ⟨16, _⟩ => ⟨S1x32x128, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S256x1 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

class Facts₀ : Prop where
  slices_S385x256_S128x256_0_0 : S385x256.Slices ![0, 0] S128x256
  bitsLt_bf16_f32 : FTy.bits .bf16 < FTy.bits .f32
  slices_S385x256_S128x256_128_0 : S385x256.Slices ![128, 0] S128x256
  slices_S385x256_S128x256_256_0 : S385x256.Slices ![256, 0] S128x256
  slices_S385x256_S1x256_384_0 : S385x256.Slices ![384, 0] S1x256
  shapeCasts_S256_S1x256 : S256.ShapeCasts S1x256
  shapeCasts_S1_S1x1 : S1.ShapeCasts S1x1
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S32x128_S32x1x128 : S32x128.ShapeCasts S32x1x128
  shapeCasts_S128x128_S1x128x128 : S128x128.ShapeCasts S1x128x128
  broadcasts_S32x1x128_S32x128x128 : S32x1x128.Broadcasts S32x128x128
  broadcasts_S1x128x128_S32x128x128 : S1x128x128.Broadcasts S32x128x128
  shapeCasts_S32x128x128_S4096x128 : S32x128x128.ShapeCasts S4096x128
  shapeCasts_S4096x256_S32x128x256 : S4096x256.ShapeCasts S32x128x256
  shapeCasts_S32x128_S32x128x1 : S32x128.ShapeCasts S32x128x1
  shapeCasts_S1x256_S256 : S1x256.ShapeCasts S256
  shapeCasts_S256_S1x1x256 : S256.ShapeCasts S1x1x256
  broadcasts_S32x128x1_S32x128x256 : S32x128x1.Broadcasts S32x128x256
  broadcasts_S1x1x256_S32x128x256 : S1x1x256.Broadcasts S32x128x256
  shapeCasts_S32x256_S32x1x256 : S32x256.ShapeCasts S32x1x256
  shapeCasts_S128x256_S1x128x256 : S128x256.ShapeCasts S1x128x256
  broadcasts_S32x1x256_S32x128x256 : S32x1x256.Broadcasts S32x128x256
  broadcasts_S1x128x256_S32x128x256 : S1x128x256.Broadcasts S32x128x256
  shapeCasts_S32x128x256_S4096x256 : S32x128x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S4096x1_S32x128 : S4096x1.ShapeCasts S32x128
  inpos_S1x1_p0_0 : ∀ a, (![0, 0] : Fin 2 → Nat) a < S1x1.size a
  shapeCasts_S32x128_S1x32x128 : S32x128.ShapeCasts S1x32x128
  transposes_S2x512x512_S2x512x512_0_2_1 : S2x512x512.Transposes [0, 2, 1] S2x512x512
  bcast_S_S2x512x512 : S_.BroadcastsInDim S2x512x512 (![] : Fin 0 → Fin S2x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S2x512x512_0_1_2 : S1x512x512.BroadcastsInDim S2x512x512 (![0, 1, 2] : Fin 3 → Fin S2x512x512.rank)
  dot_S32x128_S128x256_S32x256_1_0_0_1_n_n_wf : DotDims.WF S32x128 S128x256 S32x256 [1] [0] [0] [1] [] []
  dot_S128x128_S128x256_S128x256_1_0_0_1_n_n_wf : DotDims.WF S128x128 S128x256 S128x256 [1] [0] [0] [1] [] []
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128.size a ≤ S2x512x128.size a
  hwx0_0 : ∀ i : grid0.Coords, EltTy.bits .f32 = 32 ∨ (Rect.block (s := S2x512x128) S1x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S2x512x128.size a
  hwx0_1 : ∀ i : grid0.Coords, EltTy.bits .f32 = 32 ∨ (Rect.block (s := S2x512x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x128.size a ≤ S2x512x512.size a
  hwx0_2 : ∀ i : grid0.Coords, EltTy.bits .f32 = 32 ∨ (Rect.block (s := S2x512x512) S1x32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x1.size a ≤ S256x1.size a
  hwx0_10 : ∀ i : grid0.Coords, EltTy.bits .bf16 = 32 ∨ (Rect.block (s := S256x1) S256x1.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x32x128.size a ≤ S2x512x512.size a
  hwx0_12 : ∀ i : grid0.Coords, EltTy.bits .f32 = 32 ∨ (Rect.block (s := S2x512x512) S1x32x128.size (cc0_transform_12 i) (hinb0_12 i)).WholeWords (EltTy.packing .f32)

variable [Facts₀]

def dot_S32x128_S128x256_S32x256_1_0_0_1_n_n : DotDims S32x128 S128x256 S32x256 where
  lhsContracting := [1]
  rhsContracting := [0]
  lhsNonContracting := [0]
  rhsNonContracting := [1]
  lhsBatch := []
  rhsBatch := []
  wf := dot_S32x128_S128x256_S32x256_1_0_0_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_arg0) S1x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S256x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x32x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S2x512x128 : Shape := ⟨3, ![2, 512, 128]⟩
abbrev S2x512x4 : Shape := ⟨3, ![2, 512, 4]⟩
abbrev S2x512x512 : Shape := ⟨3, ![2, 512, 512]⟩
abbrev S385x256 : Shape := ⟨2, ![385, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S2x512x1x128 : Shape := ⟨4, ![2, 512, 1, 128]⟩
abbrev S2x512x512x128 : Shape := ⟨4, ![2, 512, 512, 128]⟩
abbrev S2x1x512x128 : Shape := ⟨4, ![2, 1, 512, 128]⟩
abbrev S2x512x512x1 : Shape := ⟨4, ![2, 512, 512, 1]⟩
abbrev S2x512x512x385 : Shape := ⟨4, ![2, 512, 512, 385]⟩
abbrev S2x512x512x256 : Shape := ⟨4, ![2, 512, 512, 256]⟩
abbrev S1x1x1x256 : Shape := ⟨4, ![1, 1, 1, 256]⟩
abbrev S_ : Shape := ⟨0, ![]⟩
abbrev S1x1x1x1 : Shape := ⟨4, ![1, 1, 1, 1]⟩
abbrev S512x512 : Shape := ⟨2, ![512, 512]⟩
abbrev S1x512x512 : Shape := ⟨3, ![1, 512, 512]⟩

abbrev nBuf : Space → Nat
  | .hbm => 58
  | .vmem => 0
  | .smem => 0
  | _ => 0

abbrev bufTy : (tb : Table) → Fin (tcTables nBuf tb) → BufTy
  | .hbm, ⟨0, _⟩ => ⟨S2x512x128, .f32⟩
  | .hbm, ⟨1, _⟩ => ⟨S2x512x4, .f32⟩
  | .hbm, ⟨2, _⟩ => ⟨S2x512x512, .f32⟩
  | .hbm, ⟨3, _⟩ => ⟨S385x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S2x512x1x128, .f32⟩
  | .hbm, ⟨10, _⟩ => ⟨S2x512x512x128, .f32⟩
  | .hbm, ⟨11, _⟩ => ⟨S2x1x512x128, .f32⟩
  | .hbm, ⟨12, _⟩ => ⟨S2x512x512x128, .f32⟩
  | .hbm, ⟨13, _⟩ => ⟨S2x512x1x128, .f32⟩
  | .hbm, ⟨14, _⟩ => ⟨S2x1x512x128, .f32⟩
  | .hbm, ⟨15, _⟩ => ⟨S2x512x512x128, .f32⟩
  | .hbm, ⟨16, _⟩ => ⟨S2x512x512x128, .f32⟩
  | .hbm, ⟨17, _⟩ => ⟨S2x512x512x128, .f32⟩
  | .hbm, ⟨18, _⟩ => ⟨S2x512x512x128, .f32⟩
  | .hbm, ⟨19, _⟩ => ⟨S2x512x512x1, .f32⟩
  | .hbm, ⟨20, _⟩ => ⟨S2x512x512x385, .f32⟩
  | .hbm, ⟨21, _⟩ => ⟨S2x512x512x256, .f32⟩
  | .hbm, ⟨22, _⟩ => ⟨S1x1x1x256, .f32⟩
  | .hbm, ⟨23, _⟩ => ⟨S2x512x512x256, .f32⟩
  | .hbm, ⟨24, _⟩ => ⟨S2x512x512x256, .f32⟩
  | .hbm, ⟨25, _⟩ => ⟨S_, .f32⟩
  | .hbm, ⟨26, _⟩ => ⟨S2x512x512x256, .f32⟩
  | .hbm, ⟨27, _⟩ => ⟨S2x512x512x256, .f32⟩
  | .hbm, ⟨28, _⟩ => ⟨S2x512x512x256, .f32⟩
  | .hbm, ⟨29, _⟩ => ⟨S1x1x1x256, .f32⟩
  | .hbm, ⟨30, _⟩ => ⟨S2x512x512x256, .f32⟩
  | .hbm, ⟨31, _⟩ => ⟨S2x512x512x256, .f32⟩
  | .hbm, ⟨32, _⟩ => ⟨S_, .f32⟩
  | .hbm, ⟨33, _⟩ => ⟨S2x512x512x256, .f32⟩
  | .hbm, ⟨34, _⟩ => ⟨S2x512x512x256, .f32⟩
  | .hbm, ⟨35, _⟩ => ⟨S2x512x512x1, .f32⟩
  | .hbm, ⟨36, _⟩ => ⟨S1x1x1x1, .f32⟩
  | .hbm, ⟨37, _⟩ => ⟨S2x512x512x1, .f32⟩
  | .hbm, ⟨38, _⟩ => ⟨S2x512x512x1, .f32⟩
  | .hbm, ⟨39, _⟩ => ⟨S2x512x512, .f32⟩
  | .hbm, ⟨40, _⟩ => ⟨S2x512x512, .f32⟩
  | .hbm, ⟨41, _⟩ => ⟨S2x512x512, .f32⟩
  | .hbm, ⟨42, _⟩ => ⟨S_, .f32⟩
  | .hbm, ⟨43, _⟩ => ⟨S2x512x512, .f32⟩
  | .hbm, ⟨44, _⟩ => ⟨S2x512x512, .f32⟩
  | .hbm, ⟨45, _⟩ => ⟨S512x512, .i32⟩
  | .hbm, ⟨46, _⟩ => ⟨S512x512, .i32⟩
  | .hbm, ⟨47, _⟩ => ⟨S_, .i32⟩
  | .hbm, ⟨48, _⟩ => ⟨S512x512, .i32⟩
  | .hbm, ⟨49, _⟩ => ⟨S512x512, .i32⟩
  | .hbm, ⟨50, _⟩ => ⟨S512x512, .i1⟩
  | .hbm, ⟨51, _⟩ => ⟨S512x512, .f32⟩
  | .hbm, ⟨52, _⟩ => ⟨S_, .f32⟩
  | .hbm, ⟨53, _⟩ => ⟨S512x512, .f32⟩
  | .hbm, ⟨54, _⟩ => ⟨S512x512, .f32⟩
  | .hbm, ⟨55, _⟩ => ⟨S1x512x512, .f32⟩
  | .hbm, ⟨56, _⟩ => ⟨S2x512x512, .f32⟩
  | .hbm, ⟨57, _⟩ => ⟨S2x512x512, .f32⟩
  | _, _ => ⟨S2x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_cst : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  bcast_S2x512x128_S2x512x1x128_0_1_3 : S2x512x128.BroadcastsInDim S2x512x1x128 (![0, 1, 3] : Fin 3 → Fin S2x512x1x128.rank)
  bcast_S2x512x1x128_S2x512x512x128_0_1_2_3 : S2x512x1x128.BroadcastsInDim S2x512x512x128 (![0, 1, 2, 3] : Fin 4 → Fin S2x512x512x128.rank)
  bcast_S2x512x128_S2x1x512x128_0_2_3 : S2x512x128.BroadcastsInDim S2x1x512x128 (![0, 2, 3] : Fin 3 → Fin S2x1x512x128.rank)
  bcast_S2x1x512x128_S2x512x512x128_0_1_2_3 : S2x1x512x128.BroadcastsInDim S2x512x512x128 (![0, 1, 2, 3] : Fin 4 → Fin S2x512x512x128.rank)
  bcast_S2x512x512_S2x512x512x1_0_1_2 : S2x512x512.BroadcastsInDim S2x512x512x1 (![0, 1, 2] : Fin 3 → Fin S2x512x512x1.rank)
  concatenates_S2x512x512x128_S2x512x512x128_S2x512x512x128_S2x512x512x1_S2x512x512x385_d3 : Shape.Concatenates [S2x512x512x128, S2x512x512x128, S2x512x512x128, S2x512x512x1] S2x512x512x385 3
  bcast_S256_S1x1x1x256_3 : S256.BroadcastsInDim S1x1x1x256 (![3] : Fin 1 → Fin S1x1x1x256.rank)
  bcast_S1x1x1x256_S2x512x512x256_0_1_2_3 : S1x1x1x256.BroadcastsInDim S2x512x512x256 (![0, 1, 2, 3] : Fin 4 → Fin S2x512x512x256.rank)
  bcast_S_S2x512x512x256 : S_.BroadcastsInDim S2x512x512x256 (![] : Fin 0 → Fin S2x512x512x256.rank)
  bcast_S1_S1x1x1x1_3 : S1.BroadcastsInDim S1x1x1x1 (![3] : Fin 1 → Fin S1x1x1x1.rank)
  bcast_S1x1x1x1_S2x512x512x1_0_1_2_3 : S1x1x1x1.BroadcastsInDim S2x512x512x1 (![0, 1, 2, 3] : Fin 4 → Fin S2x512x512x1.rank)
  shapeCasts_S2x512x512x1_S2x512x512 : S2x512x512x1.ShapeCasts S2x512x512
  transposes_S2x512x512_S2x512x512_0_2_1 : S2x512x512.Transposes [0, 2, 1] S2x512x512
  bcast_S_S2x512x512 : S_.BroadcastsInDim S2x512x512 (![] : Fin 0 → Fin S2x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S2x512x512_0_1_2 : S1x512x512.BroadcastsInDim S2x512x512 (![0, 1, 2] : Fin 3 → Fin S2x512x512.rank)
  dot_S2x512x512x385_S385x256_S2x512x512x256_3_0_012_1_n_n_wf : DotDims.WF S2x512x512x385 S385x256 S2x512x512x256 [3] [0] [0, 1, 2] [1] [] []
  dot_S2x512x512x256_S256x256_S2x512x512x256_3_0_012_1_n_n_wf : DotDims.WF S2x512x512x256 S256x256 S2x512x512x256 [3] [0] [0, 1, 2] [1] [] []
  dot_S2x512x512x256_S256x1_S2x512x512x1_3_0_012_1_n_n_wf : DotDims.WF S2x512x512x256 S256x1 S2x512x512x1 [3] [0] [0, 1, 2] [1] [] []

variable [Facts₀]

def dot_S2x512x512x385_S385x256_S2x512x512x256_3_0_012_1_n_n : DotDims S2x512x512x385 S385x256 S2x512x512x256 where
  lhsContracting := [3]
  rhsContracting := [0]
  lhsNonContracting := [0, 1, 2]
  rhsNonContracting := [1]
  lhsBatch := []
  rhsBatch := []
  wf := dot_S2x512x512x385_S385x256_S2x512x512x256_3_0_012_1_n_n_wf
def dot_S2x512x512x256_S256x256_S2x512x512x256_3_0_012_1_n_n : DotDims S2x512x512x256 S256x256 S2x512x512x256 where
  lhsContracting := [3]
  rhsContracting := [0]
  lhsNonContracting := [0, 1, 2]
  rhsNonContracting := [1]
  lhsBatch := []
  rhsBatch := []
  wf := dot_S2x512x512x256_S256x256_S2x512x512x256_3_0_012_1_n_n_wf
def dot_S2x512x512x256_S256x1_S2x512x512x1_3_0_012_1_n_n : DotDims S2x512x512x256 S256x1 S2x512x512x1 where
  lhsContracting := [3]
  rhsContracting := [0]
  lhsNonContracting := [0, 1, 2]
  rhsNonContracting := [1]
  lhsBatch := []
  rhsBatch := []
  wf := dot_S2x512x512x256_S256x1_S2x512x512x1_3_0_012_1_n_n_wf

class Facts : Prop extends Facts₀ where

variable [Facts]
-- ==== Proof.K.Body.lean ====
/-
  The kernel body's triple. At one grid point the body loads the twelve input blocks whole — the rows `hi` of the
  i-tile, the rows `hj` of the j-tile, the distance tile, the three 128-row slabs of the first layer's weights, its
  last row, the three biases and the two later weight matrices —, computes the three-layer perceptron on every pair
  (i, j) of the tile as one pure term, and stores the 32 × 128 tile of predictions over the whole output block.
  `outTile` names that stored value as a function of the twelve loaded blocks; `sound_kernel` says the body, run on
  whole staging memrefs holding the blocks, ends with the inputs as they were and the output buffer at `outTile`.
-/
import proofs.«177793_j62732292325617_1_alg».proof.Proof.Gen.Kernel.Launch
import proofs.«177793_j62732292325617_1_alg».proof.Proof.Gen.Kernel.Skeleton
import proofs.«177793_j62732292325617_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rTile : Rect S1x32x128 := Rect.unit (s := S1x32x128) ![0, 0, 0] S1x32x128.size inb_S1x32x128_S1x32x128_0_0_0
abbrev rRows : Rect S1x128x128 := Rect.unit (s := S1x128x128) ![0, 0, 0] S1x128x128.size inb_S1x128x128_S1x128x128_0_0_0
abbrev rSlab : Rect S128x256 := Rect.unit (s := S128x256) ![0, 0] S128x256.size inb_S128x256_S128x256_0_0
abbrev rRow : Rect S1x256 := Rect.unit (s := S1x256) ![0, 0] S1x256.size inb_S1x256_S1x256_0_0
abbrev rSq : Rect S256x256 := Rect.unit (s := S256x256) ![0, 0] S256x256.size inb_S256x256_S256x256_0_0
abbrev rCol : Rect S256x1 := Rect.unit (s := S256x1) ![0, 0] S256x1.size inb_S256x1_S256x1_0_0
abbrev rOne : Rect S1x1 := Rect.unit (s := S1x1) ![0, 0] S1x1.size inb_S1x1_S1x1_0_0

/-! ## What the body leaves in the output block -/

/-- The stored tile as a function of the twelve loaded blocks: the skeleton's payloads composed. `x0` the i-rows,
    `x1` the j-rows, `x2` the distance tile, `x3 x4 x5` the first layer's three weight slabs, `x6` its last row,
    `x7` its bias, `x8` the second layer's weights, `x9` its bias, `x10` the last layer's column, `x11` its bias. -/
def tilePay (x0 : Vec F S1x32x128 .f32) (x1 : Vec F S1x128x128 .f32) (x2 : Vec F S1x32x128 .f32) (x3 : Vec F S128x256 .bf16) (x4 : Vec F S128x256 .bf16) (x5 : Vec F S128x256 .bf16) (x6 : Vec F S1x256 .f32) (x7 : Vec F S1x256 .f32) (x8 : Vec F S256x256 .bf16) (x9 : Vec F S1x256 .f32) (x10 : Vec F S256x1 .bf16) (x11 : Vec F S1x1 .f32) : Vec F S1x32x128 .f32 :=
  k0_pay1 (k0_pay4 (View.ld x7 rRow)) (k0_pay5 (View.ld x0 rTile) (View.ld x3 rSlab)) (k0_pay6 (View.ld x1 rRows) (View.ld x4 rSlab))
    (k0_pay7 (View.ld x0 rTile) (View.ld x1 rRows) (View.ld x5 rSlab)) (k0_pay8 (View.ld x2 rTile)) (k0_pay9 (View.ld x6 rRow))
    (View.ld x8 rSq) (View.ld x9 rRow) (View.ld x10 rCol) (View.ld x11 rOne)

/-- The output staging buffer after the body: its one store, over the whole block. -/
def outTile (x0 : Vec F S1x32x128 .f32) (x1 : Vec F S1x128x128 .f32) (x2 : Vec F S1x32x128 .f32) (x3 : Vec F S128x256 .bf16) (x4 : Vec F S128x256 .bf16) (x5 : Vec F S128x256 .bf16) (x6 : Vec F S1x256 .f32) (x7 : Vec F S1x256 .f32) (x8 : Vec F S256x256 .bf16) (x9 : Vec F S1x256 .f32) (x10 : Vec F S256x1 .bf16) (x11 : Vec F S1x1 .f32) : Vec F S1x32x128 .f32 :=
  View.canon [⟨rTile, tilePay x0 x1 x2 x3 x4 x5 x6 x7 x8 x9 x10 x11⟩]

/-- The one store covers the buffer. -/
theorem cover_out (p0 : Vec F S1x32x128 .f32) (y : S1x32x128.Idx) :
    ∃ pc ∈ ([⟨rTile, p0⟩] : List (View.Piece (Elt F) S1x32x128 .f32)), y ∈ pc.1.set :=
  View.cover_of_tiled [⟨rTile, p0⟩] S1x32x128.size (by rfl) y

/-! ## The body's triple -/

set_option maxHeartbeats 4000000 in
/-- The body on whole staging memrefs, the inputs' at the blocks `x0 … x11` and the output's at anything, runs to the
    continuation holding the inputs' as they were and the output's at `outTile` of the inputs. -/
theorem sound_kernel (c : Dev nD) (E : Set ℕ) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x128 .f32) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S1x256 .f32) (harg12 : arg12.IsWhole) (arg13 : Memref sig .tc .vmem S256x1 .bf16) (harg13 : arg13.IsWhole) (arg14 : Memref sig .tc .vmem S1x1 .f32) (harg14 : arg14.IsWhole) (arg15 : Memref sig .tc .vmem S1x32x128 .f32) (harg15 : arg15.IsWhole)
    (x0 : Vec F S1x32x128 .f32) (x1 : Vec F S1x128x128 .f32) (x2 : Vec F S1x32x128 .f32) (x3 : Vec F S128x256 .bf16) (x4 : Vec F S128x256 .bf16) (x5 : Vec F S128x256 .bf16) (x6 : Vec F S1x256 .f32) (x7 : Vec F S1x256 .f32) (x8 : Vec F S256x256 .bf16) (x9 : Vec F S1x256 .f32) (x10 : Vec F S256x1 .bf16) (x11 : Vec F S1x1 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (outTile x0 x1 x2 x3 x4 x5 x6 x7 x8 x9 x10 x11)) -∗ K ⟨⟩))
      ⊢ wp frame (wpE (defs₀ (F := F)) Variants.none c none) E (cc0__pair_mlp_kernel i arg3 harg3 arg4 harg4 arg5 harg5 arg6 harg6 arg7 harg7 arg8 harg8 arg9 harg9 arg10 harg10 arg11 harg11 arg12 harg12 arg13 harg13 arg14 harg14 arg15 harg15) K := by
  simp only [cc0__pair_mlp_kernel_eq_skeleton]; unfold cc0__pair_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover_out _)

end Cert.Kernel.Hand

end
-- ==== Proof.K.Data.lean ====
/-
  The pipeline's proof data. The region is entered after twelve host operations have cut the first layer's weight
  matrix into its three 128-row slabs and its last row, changed the weights' format and reshaped the biases; `V` is what
  every buffer holds then. At grid point `t` each input window's staging buffer holds its block of its array (`iblk`)
  — whether the pipeline fetched it there or the block index has not moved since the last fetch — and the body leaves
  the output window's buffer at `outTile` of the twelve input blocks. Two windows read one array (the node embeddings,
  once by i-rows and once by j-rows): each holds one half of it, read only.
-/
import proofs.«177793_j62732292325617_1_alg».proof.Proof.K.Body
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the region's entry -/

/-- Core `c`'s buffers at launch, as the host operations' valuation; -/
abbrev V₀ (c : Dev nD) : Valuation τ sig (Elt F) := fun b => m ((c : Dev nD), b)
/-- and when the region is entered: the twelve operations before it have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The arrays as the region finds them; after the body each input's buffer at its block and the output's at
    `outTile` of the input blocks; the invariant the scoped buffers no window stages (there are none); nothing owed;
    the two windows on the node embeddings hold one half of that array each, every other input its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outTile (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = outTile (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The body at any point: the inputs' buffers hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Shares.lean ====
/-
  The windows' arrays at their shares. Two input windows read one array — the node embeddings, by i-rows and by
  j-rows —, so the twelve distinct buffers behind the thirteen windows' arrays, each held whole, make the pipeline's
  thirteen array holdings by cutting that one buffer's holding into its two halves (a points-to splits along a share).
-/
import proofs.«177793_j62732292325617_1_alg».proof.Proof.K.Data
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct buffers behind the windows' arrays conjoined one by one. -/
theorem bigSep_arrs {M : Type} [URA M] (Φ : Ref sig .tc → sProp M) :
    bigSep (Finset.univ.image (Pipeline.arrRef spec0)) Φ = iprop(Φ main_arg0 ∗ Φ main_arg2 ∗ Φ main_v1 ∗ Φ main_v3 ∗ Φ main_v5 ∗ Φ main_v6 ∗ Φ main_v7 ∗ Φ main_v9 ∗ Φ main_v8 ∗ Φ main_v10 ∗ Φ main_v11 ∗ Φ main_v12) :=
  bigSep_eq_bigSepL_of_eq [main_arg0, main_arg2, main_v1, main_v3, main_v5, main_v6, main_v7, main_v9, main_v8, main_v10, main_v11, main_v12] (by decide) (by decide) Φ

/-! ## Each window's share of its array -/

theorem share_0 (c : Dev nD) : (dats m 0 c).share 0 = fullShare.left := by unfold Dat.share; dsimp only [dats]; rfl
theorem share_1 (c : Dev nD) : (dats m 0 c).share 1 = fullShare.right := by unfold Dat.share; dsimp only [dats]; rfl
theorem share_2 (c : Dev nD) : (dats m 0 c).share 2 = fullShare := by unfold Dat.share; dsimp only [dats]; rfl
theorem share_3 (c : Dev nD) : (dats m 0 c).share 3 = fullShare := by unfold Dat.share; dsimp only [dats]; rfl
theorem share_4 (c : Dev nD) : (dats m 0 c).share 4 = fullShare := by unfold Dat.share; dsimp only [dats]; rfl
theorem share_5 (c : Dev nD) : (dats m 0 c).share 5 = fullShare := by unfold Dat.share; dsimp only [dats]; rfl
theorem share_6 (c : Dev nD) : (dats m 0 c).share 6 = fullShare := by unfold Dat.share; dsimp only [dats]; rfl
theorem share_7 (c : Dev nD) : (dats m 0 c).share 7 = fullShare := by unfold Dat.share; dsimp only [dats]; rfl
theorem share_8 (c : Dev nD) : (dats m 0 c).share 8 = fullShare := by unfold Dat.share; dsimp only [dats]; rfl
theorem share_9 (c : Dev nD) : (dats m 0 c).share 9 = fullShare := by unfold Dat.share; dsimp only [dats]; rfl
theorem share_10 (c : Dev nD) : (dats m 0 c).share 10 = fullShare := by unfold Dat.share; dsimp only [dats]; rfl
theorem share_11 (c : Dev nD) : (dats m 0 c).share 11 = fullShare := by unfold Dat.share; dsimp only [dats]; rfl
theorem share_12 (c : Dev nD) : (dats m 0 c).share 12 = fullShare := by unfold Dat.share; dsimp only [dats]; rfl

set_option maxHeartbeats 1000000 in
/-- The distinct buffers behind the windows' arrays, whole at `Vc`, are the pipeline's arrays at `Fw` when each
    window's contents are its buffer's: the node embeddings' holding cut into the two windows' halves. -/
theorem arrays_of_arrBufs (c : Dev nD) (Vc : (b : Ref sig .tc) → Buf (Elt F) ((c : Thread nD τ).loc b))
    (Fw : (w : Fin cfg0.W) → Buf (Elt F) ((cfg0.win w).arr.view.loc (c : Thread nD τ)))
    (hF : ∀ w, Fw w = Vc (Pipeline.arrRef spec0 w)) :
    (Pipeline.arrBufs (Ix := Unit) (Name := ℕ) (U := UR sig nD τ) (Lvl := ℕ) spec0 c Vc : sProp 𝕄) ⊢ (dats m 0 c).arrays Fw := by
  classical
  have hFw : Fw = fun w => Vc (Pipeline.arrRef spec0 w) := funext hF
  subst hFw
  unfold Pipeline.arrBufs Dat.arrays
  rw [bigSep_arrs, bigSep_W0]
  simp only [View.set_whole]
  rw [share_0, share_1, share_2, share_3, share_4, share_5, share_6, share_7, share_8, share_9, share_10, share_11, share_12]
  iintro ⟨HA, H2, H3, H4, H5, H6, H7, H8, H9, H10, H11, H12⟩
  icases (pointsTo_share (PosShare.mem_left_op_right fullShare)).1 $$ HA with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.Kernel.Hand

end
-- ==== Proof.K.Launch.lean ====
/-
  The launch. @main is twelve host operations, the kernel region, and eighteen host operations on the region's result;
  its run is the list of those three segments. Between segments the core holds its unscoped buffers: before the region all
  of them at what the first operations left; after it the windows' input arrays as they were (the two windows on the node
  embeddings one half each), and the output array, at what the pipeline's write-backs left, beside the buffers no window
  stages, which is all the later operations touch. The run ends with the result buffer at those operations' value of the
  output array and every argument array as launched: no operation writes one, and the pipeline only reads them.
-/
import proofs.«177793_j62732292325617_1_alg».proof.Proof.K.Shares
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! ## What the host operations leave alone -/

/-- The first twelve operations write only their own results. -/
theorem not_written0 (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9 ∧ b ≠ main_v10 ∧ b ≠ main_v11) :
    ∀ op ∈ (hostOps0 (F := F)), Proc.devRef .tc b ∉ op.writes := by
  obtain ⟨h0, h1, h2, h3, h4, h5, h6, h7, h8, h9, h10, h11⟩ := hb
  intro op hop
  simp only [List.mem_cons, List.mem_nil_iff, or_false] at hop
  rcases hop with rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- The last eighteen write only theirs. -/
theorem not_written1 (b : Ref sig .tc) (hb : b ≠ main_v13 ∧ b ≠ main_v14 ∧ b ≠ main_cst ∧ b ≠ main_v15 ∧ b ≠ main_v16 ∧ b ≠ main_v17 ∧ b ≠ main_v18 ∧ b ≠ main_c ∧ b ≠ main_v19 ∧ b ≠ main_v20 ∧ b ≠ main_v21 ∧ b ≠ main_v22 ∧ b ≠ main_cst_0 ∧ b ≠ main_v23 ∧ b ≠ main_v24 ∧ b ≠ main_v25 ∧ b ≠ main_v26 ∧ b ≠ main_v27) :
    ∀ op ∈ (hostOps1 (F := F)), Proc.devRef .tc b ∉ op.writes := by
  obtain ⟨h0, h1, h2, h3, h4, h5, h6, h7, h8, h9, h10, h11, h12, h13, h14, h15, h16, h17⟩ := hb
  intro op hop
  simp only [List.mem_cons, List.mem_nil_iff, or_false] at hop
  rcases hop with rfl | rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-! ## The buffers' contents between the segments -/

/-- Every buffer after the first twelve operations; -/
abbrev Vv (c : Dev nD) : Valuation τ sig (Elt F) := StableHlo.after hostOps0 (V₀ m c)

/-- the output array after the region: what the pipeline's write-backs left; -/
def outArr (c : Dev nD) : Buf (Elt F) ((c : Thread nD τ).loc main_v12) := (dats m 0 c).arrAt 12 cfg0.N

/-- every buffer after the region: the output array written, the rest as it was. -/
def V1 (c : Dev nD) : Valuation τ sig (Elt F) := Function.update (Vv m c) (Proc.devRef .tc main_v12) (outArr m c)

theorem V1_out (c : Dev nD) : V1 m c (Proc.devRef .tc main_v12) = outArr m c := Function.update_self _ _ _

theorem V1_of_ne (c : Dev nD) (b : Ref sig .tc) (hb : b ≠ main_v12) : V1 m c (Proc.devRef .tc b) = Vv m c (Proc.devRef .tc b) :=
  Function.update_of_ne (StableHlo.devRef_ne_of_ne hb) _ _

/-! ## The segments -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The pipeline library's algebra is the certificate's whole user algebra. -/
abbrev EP : Emb (UR sig nD τ) (MT nD τ sig Unit (Elt F) ℕ (UR sig nD τ) ℕ) := emb₁

/-- What rides beside the buffers: the core owes nothing. -/
abbrev R (c : Dev nD) : sProp 𝕄 := iprop(∃ W, owes (c : Thread nD τ) (0 : CellTallies nD τ sig Unit) W)

/-- The first twelve operations, over all the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The buffers the last eighteen operations touch: the output array and the buffers no window stages. -/
def tailRefs : Finset (DevRef τ sig) :=
  insert (Proc.devRef .tc main_v12) ((Pipeline.restRefs sig spec0).map ⟨Proc.devRef (sig := sig) (.tc : Proc τ), Proc.devRef_injective _⟩)

theorem mem_tailRefs_out : Proc.devRef (τ := τ) .tc main_v12 ∈ tailRefs := Finset.mem_insert_self _ _

theorem mem_tailRefs_rest (b : Ref sig .tc) (hs : b.isScoped = false) (ha : ∀ w, (spec0 w).arr.view.ref ≠ b) :
    Proc.devRef (τ := τ) .tc b ∈ tailRefs :=
  Finset.mem_insert_of_mem (Finset.mem_map_of_mem _ (Pipeline.mem_restRefs_of b hs ha))

theorem hostOps1_in : ∀ op ∈ (hostOps1 (F := F)), op.bufs ⊆ tailRefs := by
  intro op hop
  simp only [List.mem_cons, List.mem_nil_iff, or_false] at hop
  rcases hop with rfl | rfl | rfl | rfl | rfl | rfl | rfl | rfl | rfl | rfl | rfl | rfl | rfl | rfl | rfl | rfl | rfl | rfl <;>
    simp only [StableHlo.unary_bufs, StableHlo.binary_bufs, StableHlo.nullary_bufs] <;>
    intro b hb <;>
    simp only [Finset.mem_insert, Finset.mem_singleton] at hb <;>
    (first
      | (rcases hb with rfl | rfl | rfl <;> first | exact mem_tailRefs_out | exact mem_tailRefs_rest _ (by decide) (by decide))
      | (rcases hb with rfl | rfl <;> first | exact mem_tailRefs_out | exact mem_tailRefs_rest _ (by decide) (by decide))
      | (subst hb; first | exact mem_tailRefs_out | exact mem_tailRefs_rest _ (by decide) (by decide)))

/-- The two argument arrays among the windows' arrays, as the region leaves them: the node embeddings (the half the
    i-rows' window held) and the distances. -/
def keptIn (c : Dev nD) : sProp 𝕄 :=
  iprop((((c : Thread nD τ).loc main_arg0) ↦{fullShare.left} V m c main_arg0) ∗ (((c : Thread nD τ).loc main_arg2) ↦{fullShare} V m c main_arg2))

/-- The last eighteen operations, over the output array and the bypassing buffers; the two argument arrays the windows read ride along. -/
def seg1 : Pipeline.HostSeg (Name := ℕ) (U := UR sig nD τ) (pcfgs (F := F)) defs₀ 𝒱₀ L lv :=
  Pipeline.HostSeg.ofOps _ _ _ _ _ tailRefs hostOps1 hostOps1_in
    (by intro _ h; (repeat (cases h with | head => rfl | tail _ h => ?_)); exact nomatch h) (V1 m) (fun c => iprop(keptIn m c ∗ R c))

/-! ## The region's entry and exit -/

/-- ENTRY, the arrays' part: the unscoped buffers as the first operations left them are the windows' arrays at the
    proof data's entry contents — the node embeddings cut into the two windows' halves — and the buffers no window stages. -/
theorem entry_arrays (c : Dev nD) :
    (StableHlo.held (c : Thread nD τ) (Pipeline.ucRefs τ sig) (StableHlo.after hostOps0 (V₀ m c)) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  rw [show (StableHlo.held (c : Thread nD τ) (Pipeline.ucRefs τ sig) (StableHlo.after hostOps0 (V₀ m c)) : sProp 𝕄)
      = unscopedBufs c (V m c) from (Pipeline.unscopedBufs_held c _).symm,
    Pipeline.unscopedBufs_split₀ cfgs 0 winFacts₀0.arr_unscoped c (V m c)]
  exact sep_mono (arrays_of_arrBufs m c (V m c) _ (fun w => A_eq m c w)) .rfl

/-- The output array's buffer is no bypassing buffer. -/
theorem out_not_rest : Proc.devRef (τ := τ) .tc main_v12 ∉ (Pipeline.restRefs sig spec0).map ⟨Proc.devRef (sig := sig) (.tc : Proc τ), Proc.devRef_injective _⟩ := by
  intro h
  obtain ⟨b, hb, e⟩ := Finset.mem_map.mp h
  obtain rfl : b = main_v12 := Proc.devRef_injective (τ := τ) _ e
  exact (Finset.mem_sdiff.mp hb).2 (Finset.mem_image.mpr ⟨12, Finset.mem_univ _, rfl⟩)

/-- EXIT, the later operations' part: the output array at what the write-backs left and the bypassing buffers as the
    region found them are the later operations' buffers at the contents after the region. -/
theorem exit_tail (c : Dev nD) :
    iprop(((cfg0.win 12).arr.view.loc (c : Thread nD τ) ↦[(cfg0.win 12).arr.view.set]{(dats m 0 c).share 12} (dats m 0 c).arrAt 12 cfg0.N)
        ∗ Pipeline.unscopedRest (Ix := Unit) (Name := ℕ) (U := UR sig nD τ) (Lvl := ℕ) spec0 c (V m c))
      ⊢ (StableHlo.held (c : Thread nD τ) tailRefs (V1 m c) : sProp 𝕄) := by
  unfold tailRefs StableHlo.held Pipeline.unscopedRest
  rw [BI.bigSep_insert (out_not_rest), BI.bigSep_map, V1_out, (arr_whole0 12).set_eq_univ]
  refine BIClass.sep_mono .rfl (Entails.of_eq (BI.bigSep_congr fun b hb => ?_))
  show _ = (((c : Thread nD τ).1, Proc.devRef .tc b) ↦{fullShare} V1 m c (Proc.devRef .tc b) : sProp 𝕄)
  rw [V1_of_ne m c b (fun e => (Finset.mem_sdiff.mp hb).2 (Finset.mem_image.mpr ⟨12, Finset.mem_univ _, e ▸ rfl⟩))]
  try rfl

/-- EXIT, the argument arrays' part: the node embeddings and the distances, as the windows' proof data computes them
    after the last point, are what the region found — an input array is never written. -/
theorem exit_kept (c : Dev nD) :
    iprop(((cfg0.win 0).arr.view.loc (c : Thread nD τ) ↦[(cfg0.win 0).arr.view.set]{(dats m 0 c).share 0} (dats m 0 c).arrAt 0 cfg0.N)
        ∗ ((cfg0.win 2).arr.view.loc (c : Thread nD τ) ↦[(cfg0.win 2).arr.view.set]{(dats m 0 c).share 2} (dats m 0 c).arrAt 2 cfg0.N))
      ⊢ keptIn m c := by
  unfold keptIn
  rw [(arr_whole0 0).set_eq_univ, (arr_whole0 2).set_eq_univ, (dats m 0 c).arrAt_in 0 rfl _, (dats m 0 c).arrAt_in 2 rfl _, A_eq, A_eq]
  exact .rfl

-- the region rule's statement is over the pinned configuration: unification must unfold plain definitions in a metavariable's type
set_option backward.isDefEq.respectTransparency.types false in
/-- THE REGION: the decided layout (the arrays' distinctness apart), no semaphore of the kernel's own, the body obligation;
    entered from what the first operations left — the windows' arrays into the pipeline, the other buffers bypassing —,
    left with the output array written, the bypassing buffers as they were and the two argument arrays the windows read. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) tailRefs (V1 m c) ∗ keptIn m c ∗ R c)
  X _ := iprop(emp)
  Y _ := iprop(emp)
  Z c := Pipeline.unscopedRest (Ix := Unit) (Name := ℕ) (U := UR sig nD τ) (Lvl := ℕ) spec0 c (V m c)
  hentry c := by
    iintro ⟨⟨Hub, HO⟩, -, -⟩
    ihave H := (entry_arrays m c) $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none (nD := nD) (τ := τ) (sig := sig) (Ix := Unit) (Val := Elt F) (Name := ℕ) (U := UR sig nD τ) (Lvl := ℕ) c,
      show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    unfold Pipeline.Dat.arrays
    rw [bigSep_W0]
    iintro ⟨⟨H0, -, H2, -, -, -, -, -, -, -, -, -, H12⟩, HO, -, HZ⟩
    imodintro
    isplitl [H12 HZ]
    · iapply (exit_tail m c); isplitl [H12] <;> iassumption
    isplitl [H0 H2]
    · iapply (exit_kept m c); isplitl [H0] <;> iassumption
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-! ## The run -/

/-- What the core holds at the end: the later operations' buffers at what they computed, and the two kept arrays. -/
abbrev Tₙ (c : Dev nD) : sProp 𝕄 :=
  iprop(StableHlo.held (c : Thread nD τ) tailRefs (StableHlo.after hostOps1 (V1 m c)) ∗ keptIn m c)

/-- The run's post: the result buffer at the later operations' value from the contents after the region, every argument
    array as launched. -/
def QC : PUnit × MemSt nD τ sig (Elt F) → Prop := fun r =>
  ∀ c : Dev nD, r.2.mem ((c : Thread nD τ).loc main_v27) = StableHlo.after hostOps1 (V1 m c) (Proc.devRef .tc main_v27)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)

/-- An argument array no window stages is, after every host operation, as launched. -/
theorem arg_kept (c : Dev nD) (b : Ref sig .tc) (h12 : b ≠ main_v12)
    (h0 : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9 ∧ b ≠ main_v10 ∧ b ≠ main_v11)
    (h1 : b ≠ main_v13 ∧ b ≠ main_v14 ∧ b ≠ main_cst ∧ b ≠ main_v15 ∧ b ≠ main_v16 ∧ b ≠ main_v17 ∧ b ≠ main_v18 ∧ b ≠ main_c ∧ b ≠ main_v19 ∧ b ≠ main_v20 ∧ b ≠ main_v21 ∧ b ≠ main_v22 ∧ b ≠ main_cst_0 ∧ b ≠ main_v23 ∧ b ≠ main_v24 ∧ b ≠ main_v25 ∧ b ≠ main_v26 ∧ b ≠ main_v27) :
    StableHlo.after hostOps1 (V1 m c) (Proc.devRef .tc b) = m ((c : Thread nD τ).loc b) := by
  rw [StableHlo.after_of_forall_not_mem (b := Proc.devRef .tc b) hostOps1 (V1 m c) (not_written1 b h1), V1_of_ne m c b h12]
  exact StableHlo.after_of_forall_not_mem (b := Proc.devRef .tc b) hostOps0 (V₀ m c) (not_written0 b h0)

/-- A staged argument array reaches the region as launched. -/
theorem V_arg (c : Dev nD) (b : Ref sig .tc) (h0 : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9 ∧ b ≠ main_v10 ∧ b ≠ main_v11) :
    V m c b = m ((c : Thread nD τ).loc b) :=
  StableHlo.after_of_forall_not_mem (b := Proc.devRef .tc b) hostOps0 (V₀ m c) (not_written0 b h0)

set_option backward.isDefEq.respectTransparency.types false in
/-- At the compiled mesh, for any float values, from any memory with zero counters: every weakly fair execution of @main
    terminates, with the result buffer at the later operations' value and every argument array unchanged. -/
theorem run_main : θ_run defs (onTc (τ := τ) (main (F := F))) ⟨m, fun _ => 0, ρ⟩ (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => (show iprop(StableHlo.held (c : Thread nD τ) tailRefs (StableHlo.after hostOps1 (V1 m c)) ∗ keptIn m c ∗ R c)
          ⊢ iprop(Tₙ m c ∗ ∃ W, owes (c : Thread nD τ) (0 : CellTallies nD τ sig Unit) W) from by
      iintro ⟨Hh, Hk, HR⟩
      isplitr [HR]
      · isplitl [Hh] <;> iassumption
      · iexact HR)⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v27) = StableHlo.after hostOps1 (V1 m c) (Proc.devRef .tc main_v27)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5)
      ∧ s.mem ((c : Thread nD τ).loc main_arg6) = m ((c : Thread nD τ).loc main_arg6)
      ∧ s.mem ((c : Thread nD τ).loc main_arg7) = m ((c : Thread nD τ).loc main_arg7)
      ∧ s.mem ((c : Thread nD τ).loc main_arg8) = m ((c : Thread nD τ).loc main_arg8))
    (hfin := fun c s' => by
      dsimp only [Tₙ]; unfold keptIn StableHlo.held
      iintro ⟨⟨Hh, H0, H2⟩, HSI⟩
      icombine HSI H0 gives %h0
      icombine HSI H2 gives %h2
      ihave Hr := (pointsTo_read_all tailRefs (fun b => ((c : Thread nD τ).1, b)) (StableHlo.after hostOps1 (V1 m c)) s') $$ [Hh HSI]
      · isplitl [Hh] <;> iassumption
      icases Hr with ⟨%hr, HSI⟩
      imodintro
      isplitr
      · ipureintro
        refine ⟨hr _ (mem_tailRefs_rest main_v27 (by decide) (by decide)),
          (Buf.eq_of_forall_mem_univ h0).trans (V_arg m c main_arg0 (by decide)),
          (hr _ (mem_tailRefs_rest main_arg1 (by decide) (by decide))).trans (arg_kept m c main_arg1 (by decide) (by decide) (by decide)),
          (Buf.eq_of_forall_mem_univ h2).trans (V_arg m c main_arg2 (by decide)),
          (hr _ (mem_tailRefs_rest main_arg3 (by decide) (by decide))).trans (arg_kept m c main_arg3 (by decide) (by decide) (by decide)),
          (hr _ (mem_tailRefs_rest main_arg4 (by decide) (by decide))).trans (arg_kept m c main_arg4 (by decide) (by decide) (by decide)),
          (hr _ (mem_tailRefs_rest main_arg5 (by decide) (by decide))).trans (arg_kept m c main_arg5 (by decide) (by decide) (by decide)),
          (hr _ (mem_tailRefs_rest main_arg6 (by decide) (by decide))).trans (arg_kept m c main_arg6 (by decide) (by decide) (by decide)),
          (hr _ (mem_tailRefs_rest main_arg7 (by decide) (by decide))).trans (arg_kept m c main_arg7 (by decide) (by decide) (by decide)),
          (hr _ (mem_tailRefs_rest main_arg8 (by decide) (by decide))).trans (arg_kept m c main_arg8 (by decide) (by decide) (by decide))⟩
      iexact HSI)
    (hQ := fun _ h => h)

/-- info: 'Cert.Kernel.Hand.run_main' depends on axioms: [propext, Classical.choice, Quot.sound] -/
#guard_msgs in #print axioms run_main

/-- THE FRAME: the run with the result's value dropped — @main terminates, nothing faults, every argument array ends
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.Kernel.Hand

end
-- ==== Proof.KI.Body.lean ====
/-
  The kernel body's triple. At one grid point the body loads the twelve input blocks whole — the rows `hi` of the
  i-tile, the rows `hj` of the j-tile, the distance tile, the three 128-row slabs of the first layer's weights, its
  last row, the three biases and the two later weight matrices —, computes the three-layer perceptron on every pair
  (i, j) of the tile as one pure term, and stores the 32 × 128 tile of predictions over the whole output block.
  `outTile` names that stored value as a function of the twelve loaded blocks; `sound_kernel` says the body, run on
  whole staging memrefs holding the blocks, ends with the inputs as they were and the output buffer at `outTile`.
-/
import proofs.«177793_j62732292325617_1_alg».proof.Proof.Gen.KernelIdeal.Launch
import proofs.«177793_j62732292325617_1_alg».proof.Proof.Gen.KernelIdeal.Skeleton
import proofs.«177793_j62732292325617_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rTile : Rect S1x32x128 := Rect.unit (s := S1x32x128) ![0, 0, 0] S1x32x128.size inb_S1x32x128_S1x32x128_0_0_0
abbrev rRows : Rect S1x128x128 := Rect.unit (s := S1x128x128) ![0, 0, 0] S1x128x128.size inb_S1x128x128_S1x128x128_0_0_0
abbrev rSlab : Rect S128x256 := Rect.unit (s := S128x256) ![0, 0] S128x256.size inb_S128x256_S128x256_0_0
abbrev rRow : Rect S1x256 := Rect.unit (s := S1x256) ![0, 0] S1x256.size inb_S1x256_S1x256_0_0
abbrev rSq : Rect S256x256 := Rect.unit (s := S256x256) ![0, 0] S256x256.size inb_S256x256_S256x256_0_0
abbrev rCol : Rect S256x1 := Rect.unit (s := S256x1) ![0, 0] S256x1.size inb_S256x1_S256x1_0_0
abbrev rOne : Rect S1x1 := Rect.unit (s := S1x1) ![0, 0] S1x1.size inb_S1x1_S1x1_0_0

/-! ## What the body leaves in the output block -/

/-- The stored tile as a function of the twelve loaded blocks: the skeleton's payloads composed. `x0` the i-rows,
    `x1` the j-rows, `x2` the distance tile, `x3 x4 x5` the first layer's three weight slabs, `x6` its last row,
    `x7` its bias, `x8` the second layer's weights, `x9` its bias, `x10` the last layer's column, `x11` its bias. -/
def tilePay (x0 : Vec F S1x32x128 .f32) (x1 : Vec F S1x128x128 .f32) (x2 : Vec F S1x32x128 .f32) (x3 : Vec F S128x256 .bf16) (x4 : Vec F S128x256 .bf16) (x5 : Vec F S128x256 .bf16) (x6 : Vec F S1x256 .f32) (x7 : Vec F S1x256 .f32) (x8 : Vec F S256x256 .bf16) (x9 : Vec F S1x256 .f32) (x10 : Vec F S256x1 .bf16) (x11 : Vec F S1x1 .f32) : Vec F S1x32x128 .f32 :=
  k0_pay1 (k0_pay4 (View.ld x7 rRow)) (k0_pay5 (View.ld x0 rTile) (View.ld x3 rSlab)) (k0_pay6 (View.ld x1 rRows) (View.ld x4 rSlab))
    (k0_pay7 (View.ld x0 rTile) (View.ld x1 rRows) (View.ld x5 rSlab)) (k0_pay8 (View.ld x2 rTile)) (k0_pay9 (View.ld x6 rRow))
    (View.ld x8 rSq) (View.ld x9 rRow) (View.ld x10 rCol) (View.ld x11 rOne)

/-- The output staging buffer after the body: its one store, over the whole block. -/
def outTile (x0 : Vec F S1x32x128 .f32) (x1 : Vec F S1x128x128 .f32) (x2 : Vec F S1x32x128 .f32) (x3 : Vec F S128x256 .bf16) (x4 : Vec F S128x256 .bf16) (x5 : Vec F S128x256 .bf16) (x6 : Vec F S1x256 .f32) (x7 : Vec F S1x256 .f32) (x8 : Vec F S256x256 .bf16) (x9 : Vec F S1x256 .f32) (x10 : Vec F S256x1 .bf16) (x11 : Vec F S1x1 .f32) : Vec F S1x32x128 .f32 :=
  View.canon [⟨rTile, tilePay x0 x1 x2 x3 x4 x5 x6 x7 x8 x9 x10 x11⟩]

/-- The one store covers the buffer. -/
theorem cover_out (p0 : Vec F S1x32x128 .f32) (y : S1x32x128.Idx) :
    ∃ pc ∈ ([⟨rTile, p0⟩] : List (View.Piece (Elt F) S1x32x128 .f32)), y ∈ pc.1.set :=
  View.cover_of_tiled [⟨rTile, p0⟩] S1x32x128.size (by rfl) y

/-! ## The body's triple -/

set_option maxHeartbeats 4000000 in
/-- The body on whole staging memrefs, the inputs' at the blocks `x0 … x11` and the output's at anything, runs to the
    continuation holding the inputs' as they were and the output's at `outTile` of the inputs. -/
theorem sound_kernel (c : Dev nD) (E : Set ℕ) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x128 .f32) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S1x256 .f32) (harg12 : arg12.IsWhole) (arg13 : Memref sig .tc .vmem S256x1 .bf16) (harg13 : arg13.IsWhole) (arg14 : Memref sig .tc .vmem S1x1 .f32) (harg14 : arg14.IsWhole) (arg15 : Memref sig .tc .vmem S1x32x128 .f32) (harg15 : arg15.IsWhole)
    (x0 : Vec F S1x32x128 .f32) (x1 : Vec F S1x128x128 .f32) (x2 : Vec F S1x32x128 .f32) (x3 : Vec F S128x256 .bf16) (x4 : Vec F S128x256 .bf16) (x5 : Vec F S128x256 .bf16) (x6 : Vec F S1x256 .f32) (x7 : Vec F S1x256 .f32) (x8 : Vec F S256x256 .bf16) (x9 : Vec F S1x256 .f32) (x10 : Vec F S256x1 .bf16) (x11 : Vec F S1x1 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (outTile x0 x1 x2 x3 x4 x5 x6 x7 x8 x9 x10 x11)) -∗ K ⟨⟩))
      ⊢ wp frame (wpE (defs₀ (F := F)) Variants.none c none) E (cc0__pair_mlp_kernel i arg3 harg3 arg4 harg4 arg5 harg5 arg6 harg6 arg7 harg7 arg8 harg8 arg9 harg9 arg10 harg10 arg11 harg11 arg12 harg12 arg13 harg13 arg14 harg14 arg15 harg15) K := by
  simp only [cc0__pair_mlp_kernel_eq_skeleton]; unfold cc0__pair_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover_out _)

end Cert.KernelIdeal.Hand

end
-- ==== Proof.KI.Data.lean ====
/-
  The pipeline's proof data. The region is entered after twelve host operations have cut the first layer's weight
  matrix into its three 128-row slabs and its last row, changed the weights' format and reshaped the biases; `V` is what
  every buffer holds then. At grid point `t` each input window's staging buffer holds its block of its array (`iblk`)
  — whether the pipeline fetched it there or the block index has not moved since the last fetch — and the body leaves
  the output window's buffer at `outTile` of the twelve input blocks. Two windows read one array (the node embeddings,
  once by i-rows and once by j-rows): each holds one half of it, read only.
-/
import proofs.«177793_j62732292325617_1_alg».proof.Proof.KI.Body
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the region's entry -/

/-- Core `c`'s buffers at launch, as the host operations' valuation; -/
abbrev V₀ (c : Dev nD) : Valuation τ sig (Elt F) := fun b => m ((c : Dev nD), b)
/-- and when the region is entered: the twelve operations before it have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The arrays as the region finds them; after the body each input's buffer at its block and the output's at
    `outTile` of the input blocks; the invariant the scoped buffers no window stages (there are none); nothing owed;
    the two windows on the node embeddings hold one half of that array each, every other input its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outTile (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = outTile (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The body at any point: the inputs' buffers hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Shares.lean ====
/-
  The windows' arrays at their shares. Two input windows read one array — the node embeddings, by i-rows and by
  j-rows —, so the twelve distinct buffers behind the thirteen windows' arrays, each held whole, make the pipeline's
  thirteen array holdings by cutting that one buffer's holding into its two halves (a points-to splits along a share).
-/
import proofs.«177793_j62732292325617_1_alg».proof.Proof.KI.Data
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct buffers behind the windows' arrays conjoined one by one. -/
theorem bigSep_arrs {M : Type} [URA M] (Φ : Ref sig .tc → sProp M) :
    bigSep (Finset.univ.image (Pipeline.arrRef spec0)) Φ = iprop(Φ main_arg0 ∗ Φ main_arg2 ∗ Φ main_v1 ∗ Φ main_v3 ∗ Φ main_v5 ∗ Φ main_v6 ∗ Φ main_v7 ∗ Φ main_v9 ∗ Φ main_v8 ∗ Φ main_v10 ∗ Φ main_v11 ∗ Φ main_v12) :=
  bigSep_eq_bigSepL_of_eq [main_arg0, main_arg2, main_v1, main_v3, main_v5, main_v6, main_v7, main_v9, main_v8, main_v10, main_v11, main_v12] (by decide) (by decide) Φ

/-! ## Each window's share of its array -/

theorem share_0 (c : Dev nD) : (dats m 0 c).share 0 = fullShare.left := by unfold Dat.share; dsimp only [dats]; rfl
theorem share_1 (c : Dev nD) : (dats m 0 c).share 1 = fullShare.right := by unfold Dat.share; dsimp only [dats]; rfl
theorem share_2 (c : Dev nD) : (dats m 0 c).share 2 = fullShare := by unfold Dat.share; dsimp only [dats]; rfl
theorem share_3 (c : Dev nD) : (dats m 0 c).share 3 = fullShare := by unfold Dat.share; dsimp only [dats]; rfl
theorem share_4 (c : Dev nD) : (dats m 0 c).share 4 = fullShare := by unfold Dat.share; dsimp only [dats]; rfl
theorem share_5 (c : Dev nD) : (dats m 0 c).share 5 = fullShare := by unfold Dat.share; dsimp only [dats]; rfl
theorem share_6 (c : Dev nD) : (dats m 0 c).share 6 = fullShare := by unfold Dat.share; dsimp only [dats]; rfl
theorem share_7 (c : Dev nD) : (dats m 0 c).share 7 = fullShare := by unfold Dat.share; dsimp only [dats]; rfl
theorem share_8 (c : Dev nD) : (dats m 0 c).share 8 = fullShare := by unfold Dat.share; dsimp only [dats]; rfl
theorem share_9 (c : Dev nD) : (dats m 0 c).share 9 = fullShare := by unfold Dat.share; dsimp only [dats]; rfl
theorem share_10 (c : Dev nD) : (dats m 0 c).share 10 = fullShare := by unfold Dat.share; dsimp only [dats]; rfl
theorem share_11 (c : Dev nD) : (dats m 0 c).share 11 = fullShare := by unfold Dat.share; dsimp only [dats]; rfl
theorem share_12 (c : Dev nD) : (dats m 0 c).share 12 = fullShare := by unfold Dat.share; dsimp only [dats]; rfl

set_option maxHeartbeats 1000000 in
/-- The distinct buffers behind the windows' arrays, whole at `Vc`, are the pipeline's arrays at `Fw` when each
    window's contents are its buffer's: the node embeddings' holding cut into the two windows' halves. -/
theorem arrays_of_arrBufs (c : Dev nD) (Vc : (b : Ref sig .tc) → Buf (Elt F) ((c : Thread nD τ).loc b))
    (Fw : (w : Fin cfg0.W) → Buf (Elt F) ((cfg0.win w).arr.view.loc (c : Thread nD τ)))
    (hF : ∀ w, Fw w = Vc (Pipeline.arrRef spec0 w)) :
    (Pipeline.arrBufs (Ix := Unit) (Name := ℕ) (U := UR sig nD τ) (Lvl := ℕ) spec0 c Vc : sProp 𝕄) ⊢ (dats m 0 c).arrays Fw := by
  classical
  have hFw : Fw = fun w => Vc (Pipeline.arrRef spec0 w) := funext hF
  subst hFw
  unfold Pipeline.arrBufs Dat.arrays
  rw [bigSep_arrs, bigSep_W0]
  simp only [View.set_whole]
  rw [share_0, share_1, share_2, share_3, share_4, share_5, share_6, share_7, share_8, share_9, share_10, share_11, share_12]
  iintro ⟨HA, H2, H3, H4, H5, H6, H7, H8, H9, H10, H11, H12⟩
  icases (pointsTo_share (PosShare.mem_left_op_right fullShare)).1 $$ HA with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.KernelIdeal.Hand

end
-- ==== Proof.KI.Launch.lean ====
/-
  The launch. @main is twelve host operations, the kernel region, and eighteen host operations on the region's result;
  its run is the list of those three segments. Between segments the core holds its unscoped buffers: before the region all
  of them at what the first operations left; after it the windows' input arrays as they were (the two windows on the node
  embeddings one half each), and the output array, at what the pipeline's write-backs left, beside the buffers no window
  stages, which is all the later operations touch. The run ends with the result buffer at those operations' value of the
  output array and every argument array as launched: no operation writes one, and the pipeline only reads them.
-/
import proofs.«177793_j62732292325617_1_alg».proof.Proof.KI.Shares
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! ## What the host operations leave alone -/

/-- The first twelve operations write only their own results. -/
theorem not_written0 (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9 ∧ b ≠ main_v10 ∧ b ≠ main_v11) :
    ∀ op ∈ (hostOps0 (F := F)), Proc.devRef .tc b ∉ op.writes := by
  obtain ⟨h0, h1, h2, h3, h4, h5, h6, h7, h8, h9, h10, h11⟩ := hb
  intro op hop
  simp only [List.mem_cons, List.mem_nil_iff, or_false] at hop
  rcases hop with rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- The last eighteen write only theirs. -/
theorem not_written1 (b : Ref sig .tc) (hb : b ≠ main_v13 ∧ b ≠ main_v14 ∧ b ≠ main_cst ∧ b ≠ main_v15 ∧ b ≠ main_v16 ∧ b ≠ main_v17 ∧ b ≠ main_v18 ∧ b ≠ main_c ∧ b ≠ main_v19 ∧ b ≠ main_v20 ∧ b ≠ main_v21 ∧ b ≠ main_v22 ∧ b ≠ main_cst_0 ∧ b ≠ main_v23 ∧ b ≠ main_v24 ∧ b ≠ main_v25 ∧ b ≠ main_v26 ∧ b ≠ main_v27) :
    ∀ op ∈ (hostOps1 (F := F)), Proc.devRef .tc b ∉ op.writes := by
  obtain ⟨h0, h1, h2, h3, h4, h5, h6, h7, h8, h9, h10, h11, h12, h13, h14, h15, h16, h17⟩ := hb
  intro op hop
  simp only [List.mem_cons, List.mem_nil_iff, or_false] at hop
  rcases hop with rfl | rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-! ## The buffers' contents between the segments -/

/-- Every buffer after the first twelve operations; -/
abbrev Vv (c : Dev nD) : Valuation τ sig (Elt F) := StableHlo.after hostOps0 (V₀ m c)

/-- the output array after the region: what the pipeline's write-backs left; -/
def outArr (c : Dev nD) : Buf (Elt F) ((c : Thread nD τ).loc main_v12) := (dats m 0 c).arrAt 12 cfg0.N

/-- every buffer after the region: the output array written, the rest as it was. -/
def V1 (c : Dev nD) : Valuation τ sig (Elt F) := Function.update (Vv m c) (Proc.devRef .tc main_v12) (outArr m c)

theorem V1_out (c : Dev nD) : V1 m c (Proc.devRef .tc main_v12) = outArr m c := Function.update_self _ _ _

theorem V1_of_ne (c : Dev nD) (b : Ref sig .tc) (hb : b ≠ main_v12) : V1 m c (Proc.devRef .tc b) = Vv m c (Proc.devRef .tc b) :=
  Function.update_of_ne (StableHlo.devRef_ne_of_ne hb) _ _

/-! ## The segments -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The pipeline library's algebra is the certificate's whole user algebra. -/
abbrev EP : Emb (UR sig nD τ) (MT nD τ sig Unit (Elt F) ℕ (UR sig nD τ) ℕ) := emb₁

/-- What rides beside the buffers: the core owes nothing. -/
abbrev R (c : Dev nD) : sProp 𝕄 := iprop(∃ W, owes (c : Thread nD τ) (0 : CellTallies nD τ sig Unit) W)

/-- The first twelve operations, over all the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The buffers the last eighteen operations touch: the output array and the buffers no window stages. -/
def tailRefs : Finset (DevRef τ sig) :=
  insert (Proc.devRef .tc main_v12) ((Pipeline.restRefs sig spec0).map ⟨Proc.devRef (sig := sig) (.tc : Proc τ), Proc.devRef_injective _⟩)

theorem mem_tailRefs_out : Proc.devRef (τ := τ) .tc main_v12 ∈ tailRefs := Finset.mem_insert_self _ _

theorem mem_tailRefs_rest (b : Ref sig .tc) (hs : b.isScoped = false) (ha : ∀ w, (spec0 w).arr.view.ref ≠ b) :
    Proc.devRef (τ := τ) .tc b ∈ tailRefs :=
  Finset.mem_insert_of_mem (Finset.mem_map_of_mem _ (Pipeline.mem_restRefs_of b hs ha))

theorem hostOps1_in : ∀ op ∈ (hostOps1 (F := F)), op.bufs ⊆ tailRefs := by
  intro op hop
  simp only [List.mem_cons, List.mem_nil_iff, or_false] at hop
  rcases hop with rfl | rfl | rfl | rfl | rfl | rfl | rfl | rfl | rfl | rfl | rfl | rfl | rfl | rfl | rfl | rfl | rfl | rfl <;>
    simp only [StableHlo.unary_bufs, StableHlo.binary_bufs, StableHlo.nullary_bufs] <;>
    intro b hb <;>
    simp only [Finset.mem_insert, Finset.mem_singleton] at hb <;>
    (first
      | (rcases hb with rfl | rfl | rfl <;> first | exact mem_tailRefs_out | exact mem_tailRefs_rest _ (by decide) (by decide))
      | (rcases hb with rfl | rfl <;> first | exact mem_tailRefs_out | exact mem_tailRefs_rest _ (by decide) (by decide))
      | (subst hb; first | exact mem_tailRefs_out | exact mem_tailRefs_rest _ (by decide) (by decide)))

/-- The two argument arrays among the windows' arrays, as the region leaves them: the node embeddings (the half the
    i-rows' window held) and the distances. -/
def keptIn (c : Dev nD) : sProp 𝕄 :=
  iprop((((c : Thread nD τ).loc main_arg0) ↦{fullShare.left} V m c main_arg0) ∗ (((c : Thread nD τ).loc main_arg2) ↦{fullShare} V m c main_arg2))

/-- The last eighteen operations, over the output array and the bypassing buffers; the two argument arrays the windows read ride along. -/
def seg1 : Pipeline.HostSeg (Name := ℕ) (U := UR sig nD τ) (pcfgs (F := F)) defs₀ 𝒱₀ L lv :=
  Pipeline.HostSeg.ofOps _ _ _ _ _ tailRefs hostOps1 hostOps1_in
    (by intro _ h; (repeat (cases h with | head => rfl | tail _ h => ?_)); exact nomatch h) (V1 m) (fun c => iprop(keptIn m c ∗ R c))

/-! ## The region's entry and exit -/

/-- ENTRY, the arrays' part: the unscoped buffers as the first operations left them are the windows' arrays at the
    proof data's entry contents — the node embeddings cut into the two windows' halves — and the buffers no window stages. -/
theorem entry_arrays (c : Dev nD) :
    (StableHlo.held (c : Thread nD τ) (Pipeline.ucRefs τ sig) (StableHlo.after hostOps0 (V₀ m c)) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  rw [show (StableHlo.held (c : Thread nD τ) (Pipeline.ucRefs τ sig) (StableHlo.after hostOps0 (V₀ m c)) : sProp 𝕄)
      = unscopedBufs c (V m c) from (Pipeline.unscopedBufs_held c _).symm,
    Pipeline.unscopedBufs_split₀ cfgs 0 winFacts₀0.arr_unscoped c (V m c)]
  exact sep_mono (arrays_of_arrBufs m c (V m c) _ (fun w => A_eq m c w)) .rfl

/-- The output array's buffer is no bypassing buffer. -/
theorem out_not_rest : Proc.devRef (τ := τ) .tc main_v12 ∉ (Pipeline.restRefs sig spec0).map ⟨Proc.devRef (sig := sig) (.tc : Proc τ), Proc.devRef_injective _⟩ := by
  intro h
  obtain ⟨b, hb, e⟩ := Finset.mem_map.mp h
  obtain rfl : b = main_v12 := Proc.devRef_injective (τ := τ) _ e
  exact (Finset.mem_sdiff.mp hb).2 (Finset.mem_image.mpr ⟨12, Finset.mem_univ _, rfl⟩)

/-- EXIT, the later operations' part: the output array at what the write-backs left and the bypassing buffers as the
    region found them are the later operations' buffers at the contents after the region. -/
theorem exit_tail (c : Dev nD) :
    iprop(((cfg0.win 12).arr.view.loc (c : Thread nD τ) ↦[(cfg0.win 12).arr.view.set]{(dats m 0 c).share 12} (dats m 0 c).arrAt 12 cfg0.N)
        ∗ Pipeline.unscopedRest (Ix := Unit) (Name := ℕ) (U := UR sig nD τ) (Lvl := ℕ) spec0 c (V m c))
      ⊢ (StableHlo.held (c : Thread nD τ) tailRefs (V1 m c) : sProp 𝕄) := by
  unfold tailRefs StableHlo.held Pipeline.unscopedRest
  rw [BI.bigSep_insert (out_not_rest), BI.bigSep_map, V1_out, (arr_whole0 12).set_eq_univ]
  refine BIClass.sep_mono .rfl (Entails.of_eq (BI.bigSep_congr fun b hb => ?_))
  show _ = (((c : Thread nD τ).1, Proc.devRef .tc b) ↦{fullShare} V1 m c (Proc.devRef .tc b) : sProp 𝕄)
  rw [V1_of_ne m c b (fun e => (Finset.mem_sdiff.mp hb).2 (Finset.mem_image.mpr ⟨12, Finset.mem_univ _, e ▸ rfl⟩))]
  try rfl

/-- EXIT, the argument arrays' part: the node embeddings and the distances, as the windows' proof data computes them
    after the last point, are what the region found — an input array is never written. -/
theorem exit_kept (c : Dev nD) :
    iprop(((cfg0.win 0).arr.view.loc (c : Thread nD τ) ↦[(cfg0.win 0).arr.view.set]{(dats m 0 c).share 0} (dats m 0 c).arrAt 0 cfg0.N)
        ∗ ((cfg0.win 2).arr.view.loc (c : Thread nD τ) ↦[(cfg0.win 2).arr.view.set]{(dats m 0 c).share 2} (dats m 0 c).arrAt 2 cfg0.N))
      ⊢ keptIn m c := by
  unfold keptIn
  rw [(arr_whole0 0).set_eq_univ, (arr_whole0 2).set_eq_univ, (dats m 0 c).arrAt_in 0 rfl _, (dats m 0 c).arrAt_in 2 rfl _, A_eq, A_eq]
  exact .rfl

-- the region rule's statement is over the pinned configuration: unification must unfold plain definitions in a metavariable's type
set_option backward.isDefEq.respectTransparency.types false in
/-- THE REGION: the decided layout (the arrays' distinctness apart), no semaphore of the kernel's own, the body obligation;
    entered from what the first operations left — the windows' arrays into the pipeline, the other buffers bypassing —,
    left with the output array written, the bypassing buffers as they were and the two argument arrays the windows read. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) tailRefs (V1 m c) ∗ keptIn m c ∗ R c)
  X _ := iprop(emp)
  Y _ := iprop(emp)
  Z c := Pipeline.unscopedRest (Ix := Unit) (Name := ℕ) (U := UR sig nD τ) (Lvl := ℕ) spec0 c (V m c)
  hentry c := by
    iintro ⟨⟨Hub, HO⟩, -, -⟩
    ihave H := (entry_arrays m c) $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none (nD := nD) (τ := τ) (sig := sig) (Ix := Unit) (Val := Elt F) (Name := ℕ) (U := UR sig nD τ) (Lvl := ℕ) c,
      show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    unfold Pipeline.Dat.arrays
    rw [bigSep_W0]
    iintro ⟨⟨H0, -, H2, -, -, -, -, -, -, -, -, -, H12⟩, HO, -, HZ⟩
    imodintro
    isplitl [H12 HZ]
    · iapply (exit_tail m c); isplitl [H12] <;> iassumption
    isplitl [H0 H2]
    · iapply (exit_kept m c); isplitl [H0] <;> iassumption
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-! ## The run -/

/-- What the core holds at the end: the later operations' buffers at what they computed, and the two kept arrays. -/
abbrev Tₙ (c : Dev nD) : sProp 𝕄 :=
  iprop(StableHlo.held (c : Thread nD τ) tailRefs (StableHlo.after hostOps1 (V1 m c)) ∗ keptIn m c)

/-- The run's post: the result buffer at the later operations' value from the contents after the region, every argument
    array as launched. -/
def QC : PUnit × MemSt nD τ sig (Elt F) → Prop := fun r =>
  ∀ c : Dev nD, r.2.mem ((c : Thread nD τ).loc main_v27) = StableHlo.after hostOps1 (V1 m c) (Proc.devRef .tc main_v27)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)

/-- An argument array no window stages is, after every host operation, as launched. -/
theorem arg_kept (c : Dev nD) (b : Ref sig .tc) (h12 : b ≠ main_v12)
    (h0 : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9 ∧ b ≠ main_v10 ∧ b ≠ main_v11)
    (h1 : b ≠ main_v13 ∧ b ≠ main_v14 ∧ b ≠ main_cst ∧ b ≠ main_v15 ∧ b ≠ main_v16 ∧ b ≠ main_v17 ∧ b ≠ main_v18 ∧ b ≠ main_c ∧ b ≠ main_v19 ∧ b ≠ main_v20 ∧ b ≠ main_v21 ∧ b ≠ main_v22 ∧ b ≠ main_cst_0 ∧ b ≠ main_v23 ∧ b ≠ main_v24 ∧ b ≠ main_v25 ∧ b ≠ main_v26 ∧ b ≠ main_v27) :
    StableHlo.after hostOps1 (V1 m c) (Proc.devRef .tc b) = m ((c : Thread nD τ).loc b) := by
  rw [StableHlo.after_of_forall_not_mem (b := Proc.devRef .tc b) hostOps1 (V1 m c) (not_written1 b h1), V1_of_ne m c b h12]
  exact StableHlo.after_of_forall_not_mem (b := Proc.devRef .tc b) hostOps0 (V₀ m c) (not_written0 b h0)

/-- A staged argument array reaches the region as launched. -/
theorem V_arg (c : Dev nD) (b : Ref sig .tc) (h0 : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9 ∧ b ≠ main_v10 ∧ b ≠ main_v11) :
    V m c b = m ((c : Thread nD τ).loc b) :=
  StableHlo.after_of_forall_not_mem (b := Proc.devRef .tc b) hostOps0 (V₀ m c) (not_written0 b h0)

set_option backward.isDefEq.respectTransparency.types false in
/-- At the compiled mesh, for any float values, from any memory with zero counters: every weakly fair execution of @main
    terminates, with the result buffer at the later operations' value and every argument array unchanged. -/
theorem run_main : θ_run defs (onTc (τ := τ) (main (F := F))) ⟨m, fun _ => 0, ρ⟩ (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => (show iprop(StableHlo.held (c : Thread nD τ) tailRefs (StableHlo.after hostOps1 (V1 m c)) ∗ keptIn m c ∗ R c)
          ⊢ iprop(Tₙ m c ∗ ∃ W, owes (c : Thread nD τ) (0 : CellTallies nD τ sig Unit) W) from by
      iintro ⟨Hh, Hk, HR⟩
      isplitr [HR]
      · isplitl [Hh] <;> iassumption
      · iexact HR)⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v27) = StableHlo.after hostOps1 (V1 m c) (Proc.devRef .tc main_v27)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5)
      ∧ s.mem ((c : Thread nD τ).loc main_arg6) = m ((c : Thread nD τ).loc main_arg6)
      ∧ s.mem ((c : Thread nD τ).loc main_arg7) = m ((c : Thread nD τ).loc main_arg7)
      ∧ s.mem ((c : Thread nD τ).loc main_arg8) = m ((c : Thread nD τ).loc main_arg8))
    (hfin := fun c s' => by
      dsimp only [Tₙ]; unfold keptIn StableHlo.held
      iintro ⟨⟨Hh, H0, H2⟩, HSI⟩
      icombine HSI H0 gives %h0
      icombine HSI H2 gives %h2
      ihave Hr := (pointsTo_read_all tailRefs (fun b => ((c : Thread nD τ).1, b)) (StableHlo.after hostOps1 (V1 m c)) s') $$ [Hh HSI]
      · isplitl [Hh] <;> iassumption
      icases Hr with ⟨%hr, HSI⟩
      imodintro
      isplitr
      · ipureintro
        refine ⟨hr _ (mem_tailRefs_rest main_v27 (by decide) (by decide)),
          (Buf.eq_of_forall_mem_univ h0).trans (V_arg m c main_arg0 (by decide)),
          (hr _ (mem_tailRefs_rest main_arg1 (by decide) (by decide))).trans (arg_kept m c main_arg1 (by decide) (by decide) (by decide)),
          (Buf.eq_of_forall_mem_univ h2).trans (V_arg m c main_arg2 (by decide)),
          (hr _ (mem_tailRefs_rest main_arg3 (by decide) (by decide))).trans (arg_kept m c main_arg3 (by decide) (by decide) (by decide)),
          (hr _ (mem_tailRefs_rest main_arg4 (by decide) (by decide))).trans (arg_kept m c main_arg4 (by decide) (by decide) (by decide)),
          (hr _ (mem_tailRefs_rest main_arg5 (by decide) (by decide))).trans (arg_kept m c main_arg5 (by decide) (by decide) (by decide)),
          (hr _ (mem_tailRefs_rest main_arg6 (by decide) (by decide))).trans (arg_kept m c main_arg6 (by decide) (by decide) (by decide)),
          (hr _ (mem_tailRefs_rest main_arg7 (by decide) (by decide))).trans (arg_kept m c main_arg7 (by decide) (by decide) (by decide)),
          (hr _ (mem_tailRefs_rest main_arg8 (by decide) (by decide))).trans (arg_kept m c main_arg8 (by decide) (by decide) (by decide))⟩
      iexact HSI)
    (hQ := fun _ h => h)

/-- info: 'Cert.KernelIdeal.Hand.run_main' depends on axioms: [propext, Classical.choice, Quot.sound] -/
#guard_msgs in #print axioms run_main

/-- THE FRAME: the run with the result's value dropped — @main terminates, nothing faults, every argument array ends
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.KernelIdeal.Hand

end
-- ==== Proof.Spec.lean ====
/-
  The specification: what both programs compute, index by index, on the extended reals.
  For a batch `b` and a pair of nodes `(i, j)` the pair's feature vector is the concatenation of node `i`'s
  embedding, node `j`'s embedding, the absolute value of their difference and the pair's distance — 385 features —,
  and the prediction is a three-layer perceptron of it: 385 → 256 (bias, max with 0) → 256 (bias, max with 0) → 1 (bias).
  `predOf` is the perceptron of ONE pair, over that pair's two embedding rows, its distance, and the weights with the first
  layer's matrix already cut into its four stretches (rows 0–127 against node `i`, rows 128–255 against node `j`, rows
  256–383 against the absolute difference, row 384 against the distance): the form in which the kernel computes it.
  `pred` reads the rows and the stretches off the whole arrays. `sum_split` is the law that joins the four stretches with
  the reference's one sum over all 385 features: a finite sum in a commutative monoid splits along a cut of its index
  range, so no finiteness of the inputs is used.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

abbrev SNodes : Shape := ⟨3, ![2, 512, 128]⟩
abbrev SPairs : Shape := ⟨3, ![2, 512, 512]⟩
abbrev SW1 : Shape := ⟨2, ![385, 256]⟩
abbrev SW2 : Shape := ⟨2, ![256, 256]⟩
abbrev SW3 : Shape := ⟨2, ![256, 1]⟩
abbrev SB : Shape := ⟨1, ![256]⟩
abbrev SB3 : Shape := ⟨1, ![1]⟩

/-! ## One pair -/

section Pair

variable (hi hj : Fin 128 → EReal) (e : EReal) (Wi Wj Wa : Fin 128 → Fin 256 → EReal) (we b1 : Fin 256 → EReal)
  (W2 : Fin 256 → Fin 256 → EReal) (b2 : Fin 256 → EReal) (W3 : Fin 256 → EReal) (b3 : EReal)

/-- The first layer before its bias, at hidden unit `h`: the four stretches, added in the kernel's order. -/
def pre1Of (h : Fin 256) : EReal :=
  (((∑ f : Fin 128, hi f * Wi f h) + ∑ f : Fin 128, hj f * Wj f h)
    + ∑ f : Fin 128, max (hi f - hj f) (-(hi f - hj f)) * Wa f h)
  + e * we h

/-- The first hidden layer. -/
def hid1Of (h : Fin 256) : EReal := max (pre1Of hi hj e Wi Wj Wa we h + b1 h) 0

/-- The second hidden layer. -/
def hid2Of (g : Fin 256) : EReal := max ((∑ h : Fin 256, hid1Of hi hj e Wi Wj Wa we b1 h * W2 h g) + b2 g) 0

/-- The pair's prediction. -/
def predOf : EReal := (∑ g : Fin 256, hid2Of hi hj e Wi Wj Wa we b1 W2 b2 g * W3 g) + b3

end Pair

/-! ## Over the whole arrays -/

/-- Row `off + f` of the first layer's weights, `f` within a 128-row stretch. -/
def rowAt (off : Nat) (hoff : off + 128 ≤ 385) (f : Fin 128) : Fin 385 := ⟨off + f.val, by omega⟩

variable (ne : SNodes.Idx → EReal) (eu : SPairs.Idx → EReal) (W1 : SW1.Idx → EReal) (b1 : SB.Idx → EReal)
  (W2 : SW2.Idx → EReal) (b2 : SB.Idx → EReal) (W3 : SW3.Idx → EReal) (b3 : SB3.Idx → EReal)

/-- The prediction for the pair `(i, j)` of batch `b`. -/
def pred (b : Fin 2) (i j : Fin 512) : EReal :=
  predOf (fun f => ne (ix3 b i f)) (fun f => ne (ix3 b j f)) (eu (ix3 b i j))
    (fun f h => W1 (ix2 (rowAt 0 (by omega) f) h)) (fun f h => W1 (ix2 (rowAt 128 (by omega) f) h))
    (fun f h => W1 (ix2 (rowAt 256 (by omega) f) h)) (fun h => W1 (ix2 (⟨384, by omega⟩ : Fin 385) h))
    (fun h => b1 (ix1 h)) (fun h g => W2 (ix2 h g)) (fun g => b2 (ix1 g)) (fun g => W3 (ix2 g (0 : Fin 1))) (b3 (ix1 (0 : Fin 1)))

/-- The predictions as one array over (batch, i, j). -/
def predArr : SPairs.Idx → EReal := fun y => pred ne eu W1 b1 W2 b2 W3 b3 (y 0) (y 1) (y 2)

/-- The features of a pair as the reference concatenates them. -/
def feat (b : Fin 2) (i j : Fin 512) (f : Fin 385) : EReal :=
  if h0 : f.val < 128 then ne (ix3 b i ⟨f.val, h0⟩)
  else if h1 : f.val < 256 then ne (ix3 b j ⟨f.val - 128, by omega⟩)
  else if h2 : f.val < 384 then
    max (ne (ix3 b i ⟨f.val - 256, by omega⟩) - ne (ix3 b j ⟨f.val - 256, by omega⟩))
      (-(ne (ix3 b i ⟨f.val - 256, by omega⟩) - ne (ix3 b j ⟨f.val - 256, by omega⟩)))
  else eu (ix3 b i j)

/-- A sum over the 385 features, cut at 128, 256 and 384. -/
theorem sum_fin385 {M : Type*} [AddCommMonoid M] (g : Fin 385 → M) :
    (∑ f : Fin 385, g f)
      = (((∑ f : Fin 128, g ⟨f.val, by have := f.isLt; omega⟩) + ∑ f : Fin 128, g ⟨128 + f.val, by have := f.isLt; omega⟩)
          + ∑ f : Fin 128, g ⟨256 + f.val, by have := f.isLt; omega⟩)
        + g ⟨384, by omega⟩ := by
  have e1 := Fin.sum_univ_castSucc (n := 384) g
  have e2 := Fin.sum_univ_add (a := 256) (b := 128) (fun i : Fin 384 => g (Fin.castSucc i))
  have e3 := Fin.sum_univ_add (a := 128) (b := 128) (fun i : Fin 256 => g (Fin.castSucc (Fin.castAdd 128 i)))
  rw [e2, e3] at e1
  exact e1

theorem feat_i (b : Fin 2) (i j : Fin 512) (f : Fin 128) :
    feat ne eu b i j ⟨f.val, by have := f.isLt; omega⟩ = ne (ix3 b i f) := by
  unfold feat
  exact dif_pos f.isLt

theorem feat_j (b : Fin 2) (i j : Fin 512) (f : Fin 128) :
    feat ne eu b i j ⟨128 + f.val, by have := f.isLt; omega⟩ = ne (ix3 b j f) := by
  have hf := f.isLt
  unfold feat
  rw [dif_neg (show ¬ 128 + f.val < 128 by omega), dif_pos (show 128 + f.val < 256 by omega)]
  exact congrArg (fun q => ne (ix3 b j q)) (Fin.ext (Nat.add_sub_cancel_left ..))

theorem feat_abs (b : Fin 2) (i j : Fin 512) (f : Fin 128) :
    feat ne eu b i j ⟨256 + f.val, by have := f.isLt; omega⟩
      = max (ne (ix3 b i f) - ne (ix3 b j f)) (-(ne (ix3 b i f) - ne (ix3 b j f))) := by
  have hf := f.isLt
  unfold feat
  rw [dif_neg (show ¬ 256 + f.val < 128 by omega), dif_neg (show ¬ 256 + f.val < 256 by omega),
    dif_pos (show 256 + f.val < 384 by omega)]
  have e : (⟨256 + f.val - 256, by omega⟩ : Fin 128) = f := Fin.ext (Nat.add_sub_cancel_left ..)
  simp only [e]

theorem feat_e (b : Fin 2) (i j : Fin 512) :
    feat ne eu b i j ⟨384, by omega⟩ = eu (ix3 b i j) := by
  unfold feat
  rw [dif_neg (show ¬ (384 : Nat) < 128 by omega), dif_neg (show ¬ (384 : Nat) < 256 by omega),
    dif_neg (show ¬ (384 : Nat) < 384 by omega)]

/-- One sum over the 385 features is the four stretches: a sum over `Fin (128 + 128 + 128 + 1)` cut at 128, 256, 384. -/
theorem sum_split (b : Fin 2) (i j : Fin 512) (h : Fin 256) :
    (∑ f : Fin 385, feat ne eu b i j f * W1 (ix2 f h))
      = pre1Of (fun f => ne (ix3 b i f)) (fun f => ne (ix3 b j f)) (eu (ix3 b i j))
          (fun f h => W1 (ix2 (rowAt 0 (by omega) f) h)) (fun f h => W1 (ix2 (rowAt 128 (by omega) f) h))
          (fun f h => W1 (ix2 (rowAt 256 (by omega) f) h)) (fun h => W1 (ix2 (⟨384, by omega⟩ : Fin 385) h)) h := by
  rw [sum_fin385, feat_e]
  unfold pre1Of
  simp only [feat_i, feat_j, feat_abs]
  rfl

end Cert.Spec

end
-- ==== Proof.KI.Pay.lean ====
/-
  The stored tile of the kernel body, read at one index, on the extended reals.
  The body computes, for every pair (q, r) of a row of the i-tile and a row of the j-tile, a three-layer perceptron of
  the pair's 385 features — the 128 features of row q, the 128 of row r, the 128 absolute differences, the pair's
  distance — with the first layer's matrix cut into the four stretches that meet those four groups. On the extended
  reals a change of float format is the identity and a matrix product into a zero accumulator is the plain sum over
  the contracted axis, so every operation of the body reads, at an index given by its coordinates, as one arithmetic
  step on the operands at indices given by coordinates: a reshape keeps the row-major position (the pair (q, r) is row
  q * 128 + r of the 4096-row matrices the second and third layers multiply), a broadcast reads `0` on a unit axis, a
  product reads a row against a column. Chained from the store back to the loads these steps give `tilePay_apply`: the
  stored tile at (0, q, r) is `Cert.Spec.predOf` of row q, row r, the distance at (q, r) and the weights, with the
  additions and products in the order the specification writes them, so no law of arithmetic is used at all.
  `outTile_eq`: the body's one store covers the whole output block, so the block after the body is that tile.
-/
import proofs.«177793_j62732292325617_1_alg».proof.Proof.KI.Body
import proofs.«177793_j62732292325617_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ## Reshapes and broadcasts read at coordinates

Each reads one layout operation at an index written by its coordinates as the operand at the index with the same
row-major position (a reshape) or with `0` on the operand's unit axes (a broadcast). -/

section Layout
variable {α : Type}

/-- An `[a, c]` array cast to `[a, 1, c]` reads, at `(i, u, k)`, the operand at `(i, k)`. -/
theorem cast_ac_a1c {a c : ℕ} (x : (⟨2, ![a, c]⟩ : Shape).Idx → α) (h : (⟨2, ![a, c]⟩ : Shape).ShapeCasts ⟨3, ![a, 1, c]⟩)
    (i : Fin a) (u : Fin 1) (k : Fin c) : shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b]` array cast to `[a, b, 1]` reads, at `(i, j, u)`, the operand at `(i, j)`. -/
theorem cast_ab_ab1 {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[1, 1, a]` reads, at `(u, v, i)`, the operand at `i`. -/
theorem cast_a_11a {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv, Nat.zero_mul, Nat.zero_add])

/-- An `[a, b, c]` array cast to `[n, c]`, its first two axes flattened, reads, at `(p, k)` with `p = i * b + j`,
    the operand at `(i, j, k)`. -/
theorem cast_abc_nc {a b c n : ℕ} (x : (⟨3, ![a, b, c]⟩ : Shape).Idx → α) (h : (⟨3, ![a, b, c]⟩ : Shape).ShapeCasts ⟨2, ![n, c]⟩)
    (i : Fin a) (j : Fin b) (k : Fin c) (p : Fin n) (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- An `[n, c]` array cast to `[a, b, c]`, its rows cut into `a` groups of `b`, reads, at `(i, j, k)`, the operand
    at `(p, k)` with `p = i * b + j`. -/
theorem cast_nc_abc {a b c n : ℕ} (x : (⟨2, ![n, c]⟩ : Shape).Idx → α) (h : (⟨2, ![n, c]⟩ : Shape).ShapeCasts ⟨3, ![a, b, c]⟩)
    (i : Fin a) (j : Fin b) (k : Fin c) (p : Fin n) (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

/-- An `[n, 1]` column cast to `[a, b]` reads, at `(i, j)`, the operand at `(p, 0)` with `p = i * b + j`. -/
theorem cast_n1_ab {a b n : ℕ} (x : (⟨2, ![n, 1]⟩ : Shape).Idx → α) (h : (⟨2, ![n, 1]⟩ : Shape).ShapeCasts ⟨2, ![a, b]⟩)
    (i : Fin a) (j : Fin b) (p : Fin n) (u : Fin 1) (hp : p.val = i.val * b + j.val) :
    shapeCast ⟨2, ![a, b]⟩ x h (ix2 i j) = x (ix2 p u) :=
  shapeCast_apply x h _ _ (by
    have hu : u.val = 0 := by omega
    rw [Shape.rowMajor_val_two, Shape.rowMajor_val_two]
    show p.val * 1 + u.val = i.val * b + j.val
    rw [hu, hp, Nat.mul_one, Nat.add_zero])

/-- An `[a, 1, c]` array broadcast to `[a, b, c]` reads, at `(i, j, k)`, the operand at `(i, 0, k)`. -/
theorem bc_a1c_abc {a b c : ℕ} (x : (⟨3, ![a, 1, c]⟩ : Shape).Idx → α) (h : (⟨3, ![a, 1, c]⟩ : Shape).Broadcasts ⟨3, ![a, b, c]⟩)
    (i : Fin a) (j : Fin b) (k : Fin c) : broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem bc_1bc_abc {a b c : ℕ} (x : (⟨3, ![1, b, c]⟩ : Shape).Idx → α) (h : (⟨3, ![1, b, c]⟩ : Shape).Broadcasts ⟨3, ![a, b, c]⟩)
    (i : Fin a) (j : Fin b) (k : Fin c) : broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem bc_ab1_abc {a b c : ℕ} (x : (⟨3, ![a, b, 1]⟩ : Shape).Idx → α) (h : (⟨3, ![a, b, 1]⟩ : Shape).Broadcasts ⟨3, ![a, b, c]⟩)
    (i : Fin a) (j : Fin b) (k : Fin c) : broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand at `(0, 0, k)`. -/
theorem bc_11c_abc {a b c : ℕ} (x : (⟨3, ![1, 1, c]⟩ : Shape).Idx → α) (h : (⟨3, ![1, 1, c]⟩ : Shape).Broadcasts ⟨3, ![a, b, c]⟩)
    (i : Fin a) (j : Fin b) (k : Fin c) : broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- The one entry of a `[1, 1]` array, extracted at position `(0, 0)`. -/
theorem extract_11 (x : (⟨2, ![1, 1]⟩ : Shape).Idx → α) (h : ∀ a, (![0, 0] : Fin 2 → Nat) a < (⟨2, ![1, 1]⟩ : Shape).size a) :
    extractAt ![0, 0] x h = x (ix2 (0 : Fin 1) (0 : Fin 1)) := by
  unfold extractAt
  exact congrArg x (funext fun a => Fin.ext (by match a with | ⟨0, _⟩ => rfl | ⟨1, _⟩ => rfl))

/-- A `[1, 256]` row flattened, given two leading unit axes and broadcast over the 32 × 128 pairs reads, at `(q, r, h)`,
    the row at `h`. -/
theorem row_apply (v : S1x256.Idx → α) (q : Fin 32) (r : Fin 128) (h : Fin 256) :
    broadcastTo S32x128x256 (shapeCast S1x1x256 (shapeCast S256 v shapeCasts_S1x256_S256) shapeCasts_S256_S1x1x256)
        broadcasts_S1x1x256_S32x128x256 (ix3 q r h) = v (ix2 (0 : Fin 1) h) :=
  (bc_11c_abc _ _ q r h).trans ((cast_a_11a _ _ 0 0 h).trans (shapeCast_1a_a_apply _ _ h))

end Layout

/-! ## The five matrix products read at coordinates

Each record contracts the left operand's axis 1 with the right operand's axis 0, with no batch axis, so into a zero
accumulator the product at `(p, h)` is the sum over `f` of the left operand at `(p, f)` times the right at `(f, h)`.
Per record: the four coordinate facts of the operand indices, then the product. -/

theorem lhs_a_0 (i : S32x256.Idx) (q : dot_S32x128_S128x256_S32x256_1_0_0_1_n_n.contr.Idx) :
    (dot_S32x128_S128x256_S32x256_1_0_0_1_n_n.lhsIdx i q 0).val = (i 0).val := by
  unfold DotDims.lhsIdx
  rw [dif_neg (show ¬(0 : Fin S32x128.rank) ∈ dot_S32x128_S128x256_S32x256_1_0_0_1_n_n.lhsBatch by decide), dif_pos (show (0 : Fin S32x128.rank) ∈ dot_S32x128_S128x256_S32x256_1_0_0_1_n_n.lhsNonContracting by decide)]
  rfl
theorem lhs_a_1 (i : S32x256.Idx) (q : dot_S32x128_S128x256_S32x256_1_0_0_1_n_n.contr.Idx) :
    (dot_S32x128_S128x256_S32x256_1_0_0_1_n_n.lhsIdx i q 1).val = (q ⟨0, by decide⟩).val :=
  dot_S32x128_S128x256_S32x256_1_0_0_1_n_n.lhsIdx_val_of_single rfl i q
theorem rhs_a_0 (i : S32x256.Idx) (q : dot_S32x128_S128x256_S32x256_1_0_0_1_n_n.contr.Idx) :
    (dot_S32x128_S128x256_S32x256_1_0_0_1_n_n.rhsIdx i q 0).val = (q ⟨0, by decide⟩).val :=
  dot_S32x128_S128x256_S32x256_1_0_0_1_n_n.rhsIdx_val_of_single rfl i q
theorem rhs_a_1 (i : S32x256.Idx) (q : dot_S32x128_S128x256_S32x256_1_0_0_1_n_n.contr.Idx) :
    (dot_S32x128_S128x256_S32x256_1_0_0_1_n_n.rhsIdx i q 1).val = (i 1).val := by
  unfold DotDims.rhsIdx
  rw [dif_neg (show ¬(1 : Fin S128x256.rank) ∈ dot_S32x128_S128x256_S32x256_1_0_0_1_n_n.rhsBatch by decide), dif_pos (show (1 : Fin S128x256.rank) ∈ dot_S32x128_S128x256_S32x256_1_0_0_1_n_n.rhsNonContracting by decide)]
  rfl
/-- The 32 × 128 by 128 × 256 product. -/
theorem mm_a_apply (l : FVec Ideal S32x128 .bf16) (r : FVec Ideal S128x256 .bf16) (p : Fin 32) (h : Fin 256) :
    matmul (F := Ideal) dot_S32x128_S128x256_S32x256_1_0_0_1_n_n none l r (constant (F := Ideal) S32x256 .f32 0x00000000#32) (ix2 p h)
      = ∑ f : Fin 128, l (ix2 p f) * r (ix2 f h) := by
  simp only [matmul]
  rw [Ideal.matmul_constant_zero_apply, ← Equiv.sum_comp (contrEquiv1 dot_S32x128_S128x256_S32x256_1_0_0_1_n_n 128 rfl rfl).symm]
  refine Finset.sum_congr rfl fun k _ => ?_
  have hk := contrEquiv1_symm_val dot_S32x128_S128x256_S32x256_1_0_0_1_n_n 128 rfl rfl k
  have el : dot_S32x128_S128x256_S32x256_1_0_0_1_n_n.lhsIdx (ix2 p h) ((contrEquiv1 dot_S32x128_S128x256_S32x256_1_0_0_1_n_n 128 rfl rfl).symm k) = ix2 p k := funext fun a => Fin.ext (by
    match a with
    | ⟨0, _⟩ => exact lhs_a_0 _ _
    | ⟨1, _⟩ => exact (lhs_a_1 _ _).trans hk)
  have er : dot_S32x128_S128x256_S32x256_1_0_0_1_n_n.rhsIdx (ix2 p h) ((contrEquiv1 dot_S32x128_S128x256_S32x256_1_0_0_1_n_n 128 rfl rfl).symm k) = ix2 k h := funext fun a => Fin.ext (by
    match a with
    | ⟨0, _⟩ => exact (rhs_a_0 _ _).trans hk
    | ⟨1, _⟩ => exact rhs_a_1 _ _)
  rw [el, er]

theorem lhs_b_0 (i : S128x256.Idx) (q : dot_S128x128_S128x256_S128x256_1_0_0_1_n_n.contr.Idx) :
    (dot_S128x128_S128x256_S128x256_1_0_0_1_n_n.lhsIdx i q 0).val = (i 0).val := by
  unfold DotDims.lhsIdx
  rw [dif_neg (show ¬(0 : Fin S128x128.rank) ∈ dot_S128x128_S128x256_S128x256_1_0_0_1_n_n.lhsBatch by decide), dif_pos (show (0 : Fin S128x128.rank) ∈ dot_S128x128_S128x256_S128x256_1_0_0_1_n_n.lhsNonContracting by decide)]
  rfl
theorem lhs_b_1 (i : S128x256.Idx) (q : dot_S128x128_S128x256_S128x256_1_0_0_1_n_n.contr.Idx) :
    (dot_S128x128_S128x256_S128x256_1_0_0_1_n_n.lhsIdx i q 1).val = (q ⟨0, by decide⟩).val :=
  dot_S128x128_S128x256_S128x256_1_0_0_1_n_n.lhsIdx_val_of_single rfl i q
theorem rhs_b_0 (i : S128x256.Idx) (q : dot_S128x128_S128x256_S128x256_1_0_0_1_n_n.contr.Idx) :
    (dot_S128x128_S128x256_S128x256_1_0_0_1_n_n.rhsIdx i q 0).val = (q ⟨0, by decide⟩).val :=
  dot_S128x128_S128x256_S128x256_1_0_0_1_n_n.rhsIdx_val_of_single rfl i q
theorem rhs_b_1 (i : S128x256.Idx) (q : dot_S128x128_S128x256_S128x256_1_0_0_1_n_n.contr.Idx) :
    (dot_S128x128_S128x256_S128x256_1_0_0_1_n_n.rhsIdx i q 1).val = (i 1).val := by
  unfold DotDims.rhsIdx
  rw [dif_neg (show ¬(1 : Fin S128x256.rank) ∈ dot_S128x128_S128x256_S128x256_1_0_0_1_n_n.rhsBatch by decide), dif_pos (show (1 : Fin S128x256.rank) ∈ dot_S128x128_S128x256_S128x256_1_0_0_1_n_n.rhsNonContracting by decide)]
  rfl
/-- The 128 × 128 by 128 × 256 product. -/
theorem mm_b_apply (l : FVec Ideal S128x128 .bf16) (r : FVec Ideal S128x256 .bf16) (p : Fin 128) (h : Fin 256) :
    matmul (F := Ideal) dot_S128x128_S128x256_S128x256_1_0_0_1_n_n none l r (constant (F := Ideal) S128x256 .f32 0x00000000#32) (ix2 p h)
      = ∑ f : Fin 128, l (ix2 p f) * r (ix2 f h) := by
  simp only [matmul]
  rw [Ideal.matmul_constant_zero_apply, ← Equiv.sum_comp (contrEquiv1 dot_S128x128_S128x256_S128x256_1_0_0_1_n_n 128 rfl rfl).symm]
  refine Finset.sum_congr rfl fun k _ => ?_
  have hk := contrEquiv1_symm_val dot_S128x128_S128x256_S128x256_1_0_0_1_n_n 128 rfl rfl k
  have el : dot_S128x128_S128x256_S128x256_1_0_0_1_n_n.lhsIdx (ix2 p h) ((contrEquiv1 dot_S128x128_S128x256_S128x256_1_0_0_1_n_n 128 rfl rfl).symm k) = ix2 p k := funext fun a => Fin.ext (by
    match a with
    | ⟨0, _⟩ => exact lhs_b_0 _ _
    | ⟨1, _⟩ => exact (lhs_b_1 _ _).trans hk)
  have er : dot_S128x128_S128x256_S128x256_1_0_0_1_n_n.rhsIdx (ix2 p h) ((contrEquiv1 dot_S128x128_S128x256_S128x256_1_0_0_1_n_n 128 rfl rfl).symm k) = ix2 k h := funext fun a => Fin.ext (by
    match a with
    | ⟨0, _⟩ => exact (rhs_b_0 _ _).trans hk
    | ⟨1, _⟩ => exact rhs_b_1 _ _)
  rw [el, er]

theorem lhs_c_0 (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem lhs_c_1 (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q
theorem rhs_c_0 (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q
theorem rhs_c_1 (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl
/-- The 4096 × 128 by 128 × 256 product. -/
theorem mm_c_apply (l : FVec Ideal S4096x128 .bf16) (r : FVec Ideal S128x256 .bf16) (p : Fin 4096) (h : Fin 256) :
    matmul (F := Ideal) dot_S4096x128_S128x256_S4096x256_1_0_0_1_n_n none l r (constant (F := Ideal) S4096x256 .f32 0x00000000#32) (ix2 p h)
      = ∑ f : Fin 128, l (ix2 p f) * r (ix2 f h) := by
  simp only [matmul]
  rw [Ideal.matmul_constant_zero_apply, ← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 p h) ((contrEquiv1 dot_S4096x128_S128x256_S4096x256_1_0_0_1_n_n 128 rfl rfl).symm k) = ix2 p k := funext fun a => Fin.ext (by
    match a with
    | ⟨0, _⟩ => exact lhs_c_0 _ _
    | ⟨1, _⟩ => exact (lhs_c_1 _ _).trans hk)
  have er : dot_S4096x128_S128x256_S4096x256_1_0_0_1_n_n.rhsIdx (ix2 p h) ((contrEquiv1 dot_S4096x128_S128x256_S4096x256_1_0_0_1_n_n 128 rfl rfl).symm k) = ix2 k h := funext fun a => Fin.ext (by
    match a with
    | ⟨0, _⟩ => exact (rhs_c_0 _ _).trans hk
    | ⟨1, _⟩ => exact rhs_c_1 _ _)
  rw [el, er]

theorem lhs_d_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_d_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_d_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_d_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl
/-- The 4096 × 256 by 256 × 256 product. -/
theorem mm_d_apply (l : FVec Ideal S4096x256 .bf16) (r : FVec Ideal S256x256 .bf16) (p : Fin 4096) (h : Fin 256) :
    matmul (F := Ideal) dot_S4096x256_S256x256_S4096x256_1_0_0_1_n_n none l r (constant (F := Ideal) S4096x256 .f32 0x00000000#32) (ix2 p h)
      = ∑ f : Fin 256, l (ix2 p f) * r (ix2 f h) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 p h) ((contrEquiv1 dot_S4096x256_S256x256_S4096x256_1_0_0_1_n_n 256 rfl rfl).symm k) = ix2 p k := funext fun a => Fin.ext (by
    match a with
    | ⟨0, _⟩ => exact lhs_d_0 _ _
    | ⟨1, _⟩ => exact (lhs_d_1 _ _).trans hk)
  have er : dot_S4096x256_S256x256_S4096x256_1_0_0_1_n_n.rhsIdx (ix2 p h) ((contrEquiv1 dot_S4096x256_S256x256_S4096x256_1_0_0_1_n_n 256 rfl rfl).symm k) = ix2 k h := funext fun a => Fin.ext (by
    match a with
    | ⟨0, _⟩ => exact (rhs_d_0 _ _).trans hk
    | ⟨1, _⟩ => exact rhs_d_1 _ _)
  rw [el, er]

theorem lhs_e_0 (i : S4096x1.Idx) (q : dot_S4096x256_S256x1_S4096x1_1_0_0_1_n_n.contr.Idx) :
    (dot_S4096x256_S256x1_S4096x1_1_0_0_1_n_n.lhsIdx i q 0).val = (i 0).val := by
  unfold DotDims.lhsIdx
  rw [dif_neg (show ¬(0 : Fin S4096x256.rank) ∈ dot_S4096x256_S256x1_S4096x1_1_0_0_1_n_n.lhsBatch by decide), dif_pos (show (0 : Fin S4096x256.rank) ∈ dot_S4096x256_S256x1_S4096x1_1_0_0_1_n_n.lhsNonContracting by decide)]
  rfl
theorem lhs_e_1 (i : S4096x1.Idx) (q : dot_S4096x256_S256x1_S4096x1_1_0_0_1_n_n.contr.Idx) :
    (dot_S4096x256_S256x1_S4096x1_1_0_0_1_n_n.lhsIdx i q 1).val = (q ⟨0, by decide⟩).val :=
  dot_S4096x256_S256x1_S4096x1_1_0_0_1_n_n.lhsIdx_val_of_single rfl i q
theorem rhs_e_0 (i : S4096x1.Idx) (q : dot_S4096x256_S256x1_S4096x1_1_0_0_1_n_n.contr.Idx) :
    (dot_S4096x256_S256x1_S4096x1_1_0_0_1_n_n.rhsIdx i q 0).val = (q ⟨0, by decide⟩).val :=
  dot_S4096x256_S256x1_S4096x1_1_0_0_1_n_n.rhsIdx_val_of_single rfl i q
theorem rhs_e_1 (i : S4096x1.Idx) (q : dot_S4096x256_S256x1_S4096x1_1_0_0_1_n_n.contr.Idx) :
    (dot_S4096x256_S256x1_S4096x1_1_0_0_1_n_n.rhsIdx i q 1).val = (i 1).val := by
  unfold DotDims.rhsIdx
  rw [dif_neg (show ¬(1 : Fin S256x1.rank) ∈ dot_S4096x256_S256x1_S4096x1_1_0_0_1_n_n.rhsBatch by decide), dif_pos (show (1 : Fin S256x1.rank) ∈ dot_S4096x256_S256x1_S4096x1_1_0_0_1_n_n.rhsNonContracting by decide)]
  rfl
/-- The 4096 × 256 by 256 × 1 product. -/
theorem mm_e_apply (l : FVec Ideal S4096x256 .bf16) (r : FVec Ideal S256x1 .bf16) (p : Fin 4096) (h : Fin 1) :
    matmul (F := Ideal) dot_S4096x256_S256x1_S4096x1_1_0_0_1_n_n none l r (constant (F := Ideal) S4096x1 .f32 0x00000000#32) (ix2 p h)
      = ∑ f : Fin 256, l (ix2 p f) * r (ix2 f h) := by
  simp only [matmul]
  rw [Ideal.matmul_constant_zero_apply, ← Equiv.sum_comp (contrEquiv1 dot_S4096x256_S256x1_S4096x1_1_0_0_1_n_n 256 rfl rfl).symm]
  refine Finset.sum_congr rfl fun k _ => ?_
  have hk := contrEquiv1_symm_val dot_S4096x256_S256x1_S4096x1_1_0_0_1_n_n 256 rfl rfl k
  have el : dot_S4096x256_S256x1_S4096x1_1_0_0_1_n_n.lhsIdx (ix2 p h) ((contrEquiv1 dot_S4096x256_S256x1_S4096x1_1_0_0_1_n_n 256 rfl rfl).symm k) = ix2 p k := funext fun a => Fin.ext (by
    match a with
    | ⟨0, _⟩ => exact lhs_e_0 _ _
    | ⟨1, _⟩ => exact (lhs_e_1 _ _).trans hk)
  have er : dot_S4096x256_S256x1_S4096x1_1_0_0_1_n_n.rhsIdx (ix2 p h) ((contrEquiv1 dot_S4096x256_S256x1_S4096x1_1_0_0_1_n_n 256 rfl rfl).symm k) = ix2 k h := funext fun a => Fin.ext (by
    match a with
    | ⟨0, _⟩ => exact (rhs_e_0 _ _).trans hk
    | ⟨1, _⟩ => exact rhs_e_1 _ _)
  rw [el, er]

/-! ## The payloads read at coordinates

With `hi` the rows of the i-tile, `hj` the rows of the j-tile: the two row products, the product of the absolute
differences, the distance and the last weight row spread over the hidden axis, and the bias. -/

/-- The whole-block offsets are zero. -/
theorem offs3_zero : (![0, 0, 0] : Fin 3 → Nat) = fun _ => 0 :=
  funext fun a => match a with | ⟨0, _⟩ => rfl | ⟨1, _⟩ => rfl | ⟨2, _⟩ => rfl
theorem offs2_zero : (![0, 0] : Fin 2 → Nat) = fun _ => 0 :=
  funext fun a => match a with | ⟨0, _⟩ => rfl | ⟨1, _⟩ => rfl

/-- The i-tile without its unit axis: row `q`, feature `f`. -/
theorem pay2_apply (v0 : Vec Ideal S1x32x128 .f32) (q : Fin 32) (f : Fin 128) :
    k0_pay2 (F := Ideal) v0 (ix2 q f) = v0 (ix3 (0 : Fin 1) q f) := by
  unfold k0_pay2
  exact shapeCast_1ab_ab_apply _ _ q f

/-- The j-tile without its unit axis: row `r`, feature `f`. -/
theorem pay3_apply (v2 : Vec Ideal S1x128x128 .f32) (r : Fin 128) (f : Fin 128) :
    k0_pay3 (F := Ideal) v2 (ix2 r f) = v2 (ix3 (0 : Fin 1) r f) := by
  unfold k0_pay3
  exact shapeCast_1ab_ab_apply _ _ r f

/-- The first layer's bias, as loaded. -/
theorem pay4_eq (v16 : Vec Ideal S1x256 .f32) : k0_pay4 (F := Ideal) v16 = v16 := by
  unfold k0_pay4
  exact shapeCast_self _ _

/-- The i-rows against the first weight slab: at `(q, h)` the sum over the features of row `q`. -/
theorem pay5_apply (v0 : Vec Ideal S1x32x128 .f32) (v8 : Vec Ideal S128x256 .bf16) (q : Fin 32) (h : Fin 256) :
    k0_pay5 (F := Ideal) v0 v8 (ix2 q h) = ∑ f : Fin 128, v0 (ix3 (0 : Fin 1) q f) * v8 (ix2 f h) := by
  unfold k0_pay5
  refine (mm_a_apply _ _ q h).trans ?_
  refine Finset.sum_congr rfl fun f _ => ?_
  exact congrArg₂ (· * ·) (pay2_apply v0 q f) (congrFun (shapeCast_self v8 _) (ix2 f h))

/-- The j-rows against the second weight slab: at `(r, h)` the sum over the features of row `r`. -/
theorem pay6_apply (v2 : Vec Ideal S1x128x128 .f32) (v10 : Vec Ideal S128x256 .bf16) (r : Fin 128) (h : Fin 256) :
    k0_pay6 (F := Ideal) v2 v10 (ix2 r h) = ∑ f : Fin 128, v2 (ix3 (0 : Fin 1) r f) * v10 (ix2 f h) := by
  unfold k0_pay6
  refine (mm_b_apply _ _ r h).trans ?_
  refine Finset.sum_congr rfl fun f _ => ?_
  exact congrArg₂ (· * ·) (pay3_apply v2 r f) (congrFun (shapeCast_self v10 _) (ix2 f h))

/-- The absolute differences against the third weight slab: the pair `(q, r)` is row `q * 128 + r` of the 4096-row
    matrix of differences, and the absolute value of `a` is `max a (-a)`. -/
theorem pay7_apply (v0 : Vec Ideal S1x32x128 .f32) (v2 : Vec Ideal S1x128x128 .f32) (v12 : Vec Ideal S128x256 .bf16)
    (q : Fin 32) (r : Fin 128) (h : Fin 256) :
    k0_pay7 (F := Ideal) v0 v2 v12 (ix3 q r h)
      = ∑ f : Fin 128, max (v0 (ix3 (0 : Fin 1) q f) - v2 (ix3 (0 : Fin 1) r f))
          (-(v0 (ix3 (0 : Fin 1) q f) - v2 (ix3 (0 : Fin 1) r f))) * v12 (ix2 f h) := by
  unfold k0_pay7
  refine (cast_nc_abc _ _ q r h (⟨q.val * 128 + r.val, by omega⟩ : Fin 4096) rfl).trans ?_
  refine (mm_c_apply _ _ _ h).trans ?_
  refine Finset.sum_congr rfl fun f _ => ?_
  refine congrArg₂ (· * ·) ?_ (congrFun (shapeCast_self v12 _) (ix2 f h))
  refine (cast_abc_nc _ _ q r f _ rfl).trans ?_
  exact congrArg₂ (fun a b : EReal => max (a - b) (-(a - b)))
    ((bc_a1c_abc _ _ q r f).trans ((cast_ac_a1c _ _ q (0 : Fin 1) f).trans (pay2_apply v0 q f)))
    ((bc_1bc_abc _ _ q r f).trans ((shapeCast_ab_1ab_apply _ _ (0 : Fin 1) r f).trans (pay3_apply v2 r f)))

/-- The distance tile spread over the hidden axis. -/
theorem pay8_apply (v4 : Vec Ideal S1x32x128 .f32) (q : Fin 32) (r : Fin 128) (h : Fin 256) :
    k0_pay8 (F := Ideal) v4 (ix3 q r h) = v4 (ix3 (0 : Fin 1) q r) := by
  unfold k0_pay8
  exact (bc_ab1_abc _ _ q r h).trans ((cast_ab_ab1 _ _ q r (0 : Fin 1)).trans (shapeCast_1ab_ab_apply _ _ q r))

/-- The first layer's last weight row spread over the pairs. -/
theorem pay9_apply (v14 : Vec Ideal S1x256 .f32) (q : Fin 32) (r : Fin 128) (h : Fin 256) :
    k0_pay9 (F := Ideal) v14 (ix3 q r h) = v14 (ix2 (0 : Fin 1) h) := by
  unfold k0_pay9
  exact (row_apply _ q r h).trans (congrFun (shapeCast_self v14 _) (ix2 (0 : Fin 1) h))

/-- The f32 zero word is the extended real `0`. -/
theorem zero_word : (Scalar.ofBits (F := Ideal) .f32 0x00000000#32 : EReal) = 0 := Ideal.ofBits_zero_f32

/-- The perceptron's three layers on the six first-layer terms, at the pair `(q, r)`: the terms are added in the
    order row product of `i`, row product of `j`, difference product, distance times last row, bias; the pair is row
    `q * 128 + r` of the two 4096-row products. -/
theorem pay1_apply (v17 : FVec Ideal S1x256 .f32) (v18 : FVec Ideal S32x256 .f32) (v19 : FVec Ideal S128x256 .f32)
    (v29 : FVec Ideal S32x128x256 .f32) (v33 : FVec Ideal S32x128x256 .f32) (v34 : FVec Ideal S32x128x256 .f32)
    (v51 : Vec Ideal S256x256 .bf16) (v53 : Vec Ideal S1x256 .f32) (v65 : Vec Ideal S256x1 .bf16) (v67 : Vec Ideal S1x1 .f32)
    (q : Fin 32) (r : Fin 128) :
    k0_pay1 (F := Ideal) v17 v18 v19 v29 v33 v34 v51 v53 v65 v67 (ix3 (0 : Fin 1) q r)
      = (∑ g : Fin 256, max ((∑ h : Fin 256,
            max (((((v18 (ix2 q h) + v19 (ix2 r h)) + v29 (ix3 q r h)) + v33 (ix3 q r h) * v34 (ix3 q r h))
                + v17 (ix2 (0 : Fin 1) h))) 0 * v51 (ix2 h g)) + v53 (ix2 (0 : Fin 1) g)) 0 * v65 (ix2 g (0 : Fin 1)))
          + v67 (ix2 (0 : Fin 1) (0 : Fin 1)) := by
  unfold k0_pay1
  have hp : q.val * 128 + r.val < 4096 := by omega
  refine (shapeCast_ab_1ab_apply _ _ (0 : Fin 1) q r).trans ?_
  refine (addf_apply _ _ _).trans ?_
  refine congrArg₂ (· + ·) ?_ ((extract_11 _ _).trans (congrFun (shapeCast_self v67 _) _))
  refine (cast_n1_ab _ _ q r (⟨q.val * 128 + r.val, hp⟩ : Fin 4096) (0 : Fin 1) rfl).trans ?_
  refine (mm_e_apply _ _ _ _).trans ?_
  refine Finset.sum_congr rfl fun g _ => ?_
  refine congrArg₂ (· * ·) ?_ (congrFun (shapeCast_self v65 _) (ix2 g (0 : Fin 1)))
  refine (cast_abc_nc _ _ q r g _ rfl).trans ?_
  refine (truncf_apply (φ := .f32) (ψ := .bf16) _ bitsLt_bf16_f32 _).trans ?_
  refine (maximumf_apply _ _ _).trans ?_
  refine congrArg₂ max ?_ zero_word
  refine (addf_apply _ _ _).trans ?_
  refine congrArg₂ (· + ·) ?_ ((row_apply _ q r g).trans (congrFun (shapeCast_self v53 _) (ix2 (0 : Fin 1) g)))
  refine (cast_nc_abc _ _ q r g (⟨q.val * 128 + r.val, hp⟩ : Fin 4096) rfl).trans ?_
  refine (mm_d_apply _ _ _ g).trans ?_
  refine Finset.sum_congr rfl fun h _ => ?_
  refine congrArg₂ (· * ·) ?_ (congrFun (shapeCast_self v51 _) (ix2 h g))
  refine (cast_abc_nc _ _ q r h _ rfl).trans ?_
  refine (truncf_apply (φ := .f32) (ψ := .bf16) _ bitsLt_bf16_f32 _).trans ?_
  refine (maximumf_apply _ _ _).trans ?_
  refine congrArg₂ max ?_ zero_word
  refine (addf_apply _ _ _).trans ?_
  refine congrArg₂ (· + ·) ?_ (row_apply _ q r h)
  refine (addf_apply _ _ _).trans ?_
  refine congrArg₂ (· + ·) ?_ (mulf_apply _ _ _)
  refine (addf_apply _ _ _).trans ?_
  refine congrArg₂ (· + ·) ?_ rfl
  refine (addf_apply _ _ _).trans ?_
  exact congrArg₂ (· + ·) ((bc_a1c_abc _ _ q r h).trans (cast_ac_a1c _ _ q (0 : Fin 1) h))
    ((bc_1bc_abc _ _ q r h).trans (shapeCast_ab_1ab_apply _ _ (0 : Fin 1) r h))

/-! ## The stored tile -/

/-- THE STORED TILE AT A PAIR: the perceptron of the pair's two embedding rows and its distance. -/
theorem tilePay_apply (x0 : Vec Ideal S1x32x128 .f32) (x1 : Vec Ideal S1x128x128 .f32) (x2 : Vec Ideal S1x32x128 .f32) (x3 : Vec Ideal S128x256 .bf16) (x4 : Vec Ideal S128x256 .bf16) (x5 : Vec Ideal S128x256 .bf16) (x6 : Vec Ideal S1x256 .f32) (x7 : Vec Ideal S1x256 .f32) (x8 : Vec Ideal S256x256 .bf16) (x9 : Vec Ideal S1x256 .f32) (x10 : Vec Ideal S256x1 .bf16) (x11 : Vec Ideal S1x1 .f32) (q : Fin 32) (r : Fin 128) :
    tilePay (F := Ideal) x0 x1 x2 x3 x4 x5 x6 x7 x8 x9 x10 x11 (ix3 (0 : Fin 1) q r)
      = Cert.Spec.predOf (fun f => x0 (ix3 (0 : Fin 1) q f)) (fun f => x1 (ix3 (0 : Fin 1) r f)) (x2 (ix3 (0 : Fin 1) q r))
          (fun f h => x3 (ix2 f h)) (fun f h => x4 (ix2 f h)) (fun f h => x5 (ix2 f h))
          (fun h => x6 (ix2 (0 : Fin 1) h)) (fun h => x7 (ix2 (0 : Fin 1) h)) (fun h g => x8 (ix2 h g))
          (fun g => x9 (ix2 (0 : Fin 1) g)) (fun g => x10 (ix2 g (0 : Fin 1))) (x11 (ix2 (0 : Fin 1) (0 : Fin 1))) := by
  unfold tilePay
  simp only [View.ld_unit_zero (S := S1x32x128) offs3_zero, View.ld_unit_zero (S := S1x128x128) offs3_zero,
    View.ld_unit_zero (S := S128x256) offs2_zero, View.ld_unit_zero (S := S1x256) offs2_zero,
    View.ld_unit_zero (S := S256x256) offs2_zero, View.ld_unit_zero (S := S256x1) offs2_zero,
    View.ld_unit_zero (S := S1x1) offs2_zero]
  refine (pay1_apply _ _ _ _ _ _ _ _ _ _ q r).trans ?_
  unfold Cert.Spec.predOf Cert.Spec.hid2Of Cert.Spec.hid1Of Cert.Spec.pre1Of
  simp only [pay4_eq, pay5_apply, pay6_apply, pay7_apply, pay8_apply, pay9_apply]

/-- The body's one store covers the whole output block, so the block after the body is the stored tile. -/
theorem outTile_eq (x0 : Vec Ideal S1x32x128 .f32) (x1 : Vec Ideal S1x128x128 .f32) (x2 : Vec Ideal S1x32x128 .f32) (x3 : Vec Ideal S128x256 .bf16) (x4 : Vec Ideal S128x256 .bf16) (x5 : Vec Ideal S128x256 .bf16) (x6 : Vec Ideal S1x256 .f32) (x7 : Vec Ideal S1x256 .f32) (x8 : Vec Ideal S256x256 .bf16) (x9 : Vec Ideal S1x256 .f32) (x10 : Vec Ideal S256x1 .bf16) (x11 : Vec Ideal S1x1 .f32) :
    outTile (F := Ideal) x0 x1 x2 x3 x4 x5 x6 x7 x8 x9 x10 x11 = tilePay (F := Ideal) x0 x1 x2 x3 x4 x5 x6 x7 x8 x9 x10 x11 := by
  unfold outTile
  exact View.canon_unit_zero (S := S1x32x128) offs3_zero _ _

end Cert.KernelIdeal.Hand

end
-- ==== Proof.KI.Blocks.lean ====
/-
  From blocks to the array. The pipeline visits the grid of batches `b`, tiles `ii` of 32 first nodes and tiles `jj` of 128
  second nodes; at each point the body leaves in the output's staging buffer the 32 × 128 tile of predictions computed
  from the twelve staged blocks, and the pipeline writes that tile back at block `(b, ii, jj)` of the output array. Here:
  what each staged array holds when the region is entered, as entries of the launch's arguments (the host has cut the
  first layer's weights into their four stretches and reshaped the biases; a change of float format is the identity on
  the extended reals); where each block's entries sit in its array; hence the tile written back at a point is that
  point's block of the array of predictions; and since the output's blocks tile its array and every point writes back,
  the array ends holding the prediction of every pair.
-/
import proofs.«177793_j62732292325617_1_alg».proof.Proof.KI.Data
import proofs.«177793_j62732292325617_1_alg».proof.Proof.Spec
import proofs.«177793_j62732292325617_1_alg».proof.Proof.KI.Pay
import Idealize.ShloMosaic.Lib.Pipeline.Value
import Idealize.ShloMosaic.Lib.ValueIdx
import Idealize.ShloMosaic.Lib.Tactic

set_option maxRecDepth 16384

noncomputable section

namespace Cert.KernelIdeal.Hand.Blocks

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat Cfg Window)

variable (m : (ℓ : Loc nD τ sig) → Buf (Elt Ideal) ℓ)

/-! ## The arrays as the region finds them

Twelve host operations run before the region. None writes an argument, so the node embeddings and the distances reach
the region as launched. The other ten arrays the region stages are results of those operations: the first layer's
weight matrix cut into rows 0–127, 128–255, 256–383 and row 384, the two later weight matrices, and the three biases
reshaped to a leading unit axis. A change of float format is the identity on the extended reals, so each of them, read at
an index, is an entry of an argument. -/

/-- No host operation before the region writes an argument. -/
theorem not_written (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9 ∧ b ≠ main_v10 ∧ b ≠ main_v11) :
    ∀ op ∈ (hostOps0 (F := Ideal)), Proc.devRef .tc b ∉ op.writes := by
  obtain ⟨h0, h1, h2, h3, h4, h5, h6, h7, h8, h9, h10, h11⟩ := hb
  intro op hop
  simp only [List.mem_cons, List.mem_nil_iff, or_false] at hop
  rcases hop with rfl | rfl | rfl | rfl | rfl | rfl | rfl | rfl | rfl | rfl | rfl | rfl <;>
    simp only [StableHlo.unary_writes, StableHlo.reshape_writes, Finset.mem_singleton] <;>
    exact StableHlo.devRef_ne_of_ne ‹_›

/-- The node embeddings reach the region as launched, -/
theorem V_arg0 (c : Dev nD) : V m c main_arg0 = m ((c : Thread nD τ).loc main_arg0) :=
  StableHlo.after_of_forall_not_mem (b := Proc.devRef .tc main_arg0) hostOps0 (V₀ m c) (not_written main_arg0 (by decide))

/-- and so do the distances. -/
theorem V_arg2 (c : Dev nD) : V m c main_arg2 = m ((c : Thread nD τ).loc main_arg2) :=
  StableHlo.after_of_forall_not_mem (b := Proc.devRef .tc main_arg2) hostOps0 (V₀ m c) (not_written main_arg2 (by decide))

/-- Rows 0–127 of the first layer's weights. -/
theorem V_v1 (c : Dev nD) : @Eq (FVec Ideal S128x256 .bf16) (V m c main_v1)
    (truncf (F := Ideal) .bf16 (extractStridedSlice S128x256 ![0, 0] (m ((c : Thread nD τ).loc main_arg3) : FVec Ideal S385x256 .f32) slices_S385x256_S128x256_0_0) bitsLt_bf16_f32) := by
  dsimp only [V]; after_results
/-- Rows 128–255. -/
theorem V_v3 (c : Dev nD) : @Eq (FVec Ideal S128x256 .bf16) (V m c main_v3)
    (truncf (F := Ideal) .bf16 (extractStridedSlice S128x256 ![128, 0] (m ((c : Thread nD τ).loc main_arg3) : FVec Ideal S385x256 .f32) slices_S385x256_S128x256_128_0) bitsLt_bf16_f32) := by
  dsimp only [V]; after_results
/-- Rows 256–383. -/
theorem V_v5 (c : Dev nD) : @Eq (FVec Ideal S128x256 .bf16) (V m c main_v5)
    (truncf (F := Ideal) .bf16 (extractStridedSlice S128x256 ![256, 0] (m ((c : Thread nD τ).loc main_arg3) : FVec Ideal S385x256 .f32) slices_S385x256_S128x256_256_0) bitsLt_bf16_f32) := by
  dsimp only [V]; after_results
/-- Row 384. -/
theorem V_v6 (c : Dev nD) : @Eq (FVec Ideal S1x256 .f32) (V m c main_v6)
    (extractStridedSlice S1x256 ![384, 0] (m ((c : Thread nD τ).loc main_arg3) : FVec Ideal S385x256 .f32) slices_S385x256_S1x256_384_0) := by
  dsimp only [V]; after_results
/-- The first bias as one row. -/
theorem V_v7 (c : Dev nD) : @Eq (FVec Ideal S1x256 .f32) (V m c main_v7)
    (shapeCast S1x256 (m ((c : Thread nD τ).loc main_arg4) : FVec Ideal S256 .f32) shapeCasts_S256_S1x256) := by
  dsimp only [V]; after_results; rfl
/-- The second bias as one row. -/
theorem V_v8 (c : Dev nD) : @Eq (FVec Ideal S1x256 .f32) (V m c main_v8)
    (shapeCast S1x256 (m ((c : Thread nD τ).loc main_arg6) : FVec Ideal S256 .f32) shapeCasts_S256_S1x256) := by
  dsimp only [V]; after_results; rfl
/-- The second layer's weights. -/
theorem V_v9 (c : Dev nD) : @Eq (FVec Ideal S256x256 .bf16) (V m c main_v9)
    (truncf (F := Ideal) .bf16 (m ((c : Thread nD τ).loc main_arg5) : FVec Ideal S256x256 .f32) bitsLt_bf16_f32) := by
  dsimp only [V]; after_results
/-- The last layer's column of weights. -/
theorem V_v10 (c : Dev nD) : @Eq (FVec Ideal S256x1 .bf16) (V m c main_v10)
    (truncf (F := Ideal) .bf16 (m ((c : Thread nD τ).loc main_arg7) : FVec Ideal S256x1 .f32) bitsLt_bf16_f32) := by
  dsimp only [V]; after_results
/-- The last bias as a one-by-one array. -/
theorem V_v11 (c : Dev nD) : @Eq (FVec Ideal S1x1 .f32) (V m c main_v11)
    (shapeCast S1x1 (m ((c : Thread nD τ).loc main_arg8) : FVec Ideal S1 .f32) shapeCasts_S1_S1x1) := by
  dsimp only [V]; after_results; rfl

/-! ### Each at an index -/

/-- A 128-row stretch of the weight matrix starting at row `off`, read at `(f, h)`, is the matrix at `(off + f, h)`. -/
theorem slab_apply (W1 : FVec Ideal S385x256 .f32) (off : Nat) (hoff : off + 128 ≤ 385) (hs : S385x256.Slices ![off, 0] S128x256)
    (f : Fin 128) (h : Fin 256) :
    (truncf (F := Ideal) .bf16 (extractStridedSlice S128x256 ![off, 0] W1 hs) bitsLt_bf16_f32 : FVec Ideal S128x256 .bf16) (ix2 f h)
      = W1 (ix2 (Cert.Spec.rowAt off hoff f) h) := by
  show extractStridedSlice S128x256 ![off, 0] W1 hs (ix2 f h) = _
  refine extractStridedSlice_apply _ _ _ (ix2 f h) (ix2 (Cert.Spec.rowAt off hoff f) h) fun a => ?_
  match a with
  | ⟨0, _⟩ => rfl
  | ⟨1, _⟩ => show h.val = 0 + h.val; omega

theorem V_v1_apply (c : Dev nD) (f : Fin 128) (h : Fin 256) :
    (V m c main_v1 : FVec Ideal S128x256 .bf16) (ix2 f h)
      = (m ((c : Thread nD τ).loc main_arg3) : FVec Ideal S385x256 .f32) (ix2 (Cert.Spec.rowAt 0 (by omega) f) h) := by
  rw [V_v1]; exact slab_apply _ 0 (by omega) _ f h
theorem V_v3_apply (c : Dev nD) (f : Fin 128) (h : Fin 256) :
    (V m c main_v3 : FVec Ideal S128x256 .bf16) (ix2 f h)
      = (m ((c : Thread nD τ).loc main_arg3) : FVec Ideal S385x256 .f32) (ix2 (Cert.Spec.rowAt 128 (by omega) f) h) := by
  rw [V_v3]; exact slab_apply _ 128 (by omega) _ f h
theorem V_v5_apply (c : Dev nD) (f : Fin 128) (h : Fin 256) :
    (V m c main_v5 : FVec Ideal S128x256 .bf16) (ix2 f h)
      = (m ((c : Thread nD τ).loc main_arg3) : FVec Ideal S385x256 .f32) (ix2 (Cert.Spec.rowAt 256 (by omega) f) h) := by
  rw [V_v5]; exact slab_apply _ 256 (by omega) _ f h
theorem V_v6_apply (c : Dev nD) (h : Fin 256) :
    (V m c main_v6 : FVec Ideal S1x256 .f32) (ix2 (0 : Fin 1) h)
      = (m ((c : Thread nD τ).loc main_arg3) : FVec Ideal S385x256 .f32) (ix2 (⟨384, by omega⟩ : Fin 385) h) := by
  rw [V_v6]
  refine extractStridedSlice_apply _ _ _ (ix2 (0 : Fin 1) h) (ix2 (⟨384, by omega⟩ : Fin 385) h) fun a => ?_
  match a with
  | ⟨0, _⟩ => rfl
  | ⟨1, _⟩ => show h.val = 0 + h.val; omega

/-- A vector of 256 entries laid out as one row reads entry `h` at `(0, h)`. -/
theorem bias_row_apply (b : FVec Ideal S256 .f32) (h : Fin 256) :
    (shapeCast S1x256 b shapeCasts_S256_S1x256 : FVec Ideal S1x256 .f32) (ix2 (0 : Fin 1) h) = b (ix1 h) := by
  refine shapeCast_apply _ _ (ix2 (0 : Fin 1) h) (ix1 h) ?_
  rw [Shape.rowMajor_val_one, Shape.rowMajor_val_two]
  show h.val = 0 * 256 + h.val; omega

theorem V_v7_apply (c : Dev nD) (h : Fin 256) :
    (V m c main_v7 : FVec Ideal S1x256 .f32) (ix2 (0 : Fin 1) h) = (m ((c : Thread nD τ).loc main_arg4) : FVec Ideal S256 .f32) (ix1 h) := by
  rw [V_v7]; exact bias_row_apply _ h
theorem V_v8_apply (c : Dev nD) (h : Fin 256) :
    (V m c main_v8 : FVec Ideal S1x256 .f32) (ix2 (0 : Fin 1) h) = (m ((c : Thread nD τ).loc main_arg6) : FVec Ideal S256 .f32) (ix1 h) := by
  rw [V_v8]; exact bias_row_apply _ h
theorem V_v9_apply (c : Dev nD) (h g : Fin 256) :
    (V m c main_v9 : FVec Ideal S256x256 .bf16) (ix2 h g) = (m ((c : Thread nD τ).loc main_arg5) : FVec Ideal S256x256 .f32) (ix2 h g) := by
  rw [V_v9]; rfl
theorem V_v10_apply (c : Dev nD) (g : Fin 256) :
    (V m c main_v10 : FVec Ideal S256x1 .bf16) (ix2 g (0 : Fin 1)) = (m ((c : Thread nD τ).loc main_arg7) : FVec Ideal S256x1 .f32) (ix2 g (0 : Fin 1)) := by
  rw [V_v10]; rfl
theorem V_v11_apply (c : Dev nD) :
    (V m c main_v11 : FVec Ideal S1x1 .f32) (ix2 (0 : Fin 1) (0 : Fin 1)) = (m ((c : Thread nD τ).loc main_arg8) : FVec Ideal S1 .f32) (ix1 (0 : Fin 1)) := by
  rw [V_v11]
  refine shapeCast_apply _ _ (ix2 (0 : Fin 1) (0 : Fin 1)) (ix1 (0 : Fin 1)) ?_
  rw [Shape.rowMajor_val_one, Shape.rowMajor_val_two]
  rfl

/-! ## One tile over abstract blocks

If the twelve blocks the body loads hold the rows of node `i`'s tile, the rows of node `j`'s tile, the distances of the
tile, the four stretches of the first layer's weights, and the remaining weights and biases, then the stored tile holds at
`(q, r)` the prediction of the pair those two rows belong to. -/

theorem tile_pred (ne : FVec Ideal S2x512x128 .f32) (eu : FVec Ideal S2x512x512 .f32) (W1 : FVec Ideal S385x256 .f32)
    (b1 : FVec Ideal S256 .f32) (W2 : FVec Ideal S256x256 .f32) (b2 : FVec Ideal S256 .f32) (W3 : FVec Ideal S256x1 .f32) (b3 : FVec Ideal S1 .f32)
    (x0 : Vec Ideal S1x32x128 .f32) (x1 : Vec Ideal S1x128x128 .f32) (x2 : Vec Ideal S1x32x128 .f32) (x3 x4 x5 : Vec Ideal S128x256 .bf16) (x6 x7 : Vec Ideal S1x256 .f32) (x8 : Vec Ideal S256x256 .bf16) (x9 : Vec Ideal S1x256 .f32) (x10 : Vec Ideal S256x1 .bf16) (x11 : Vec Ideal S1x1 .f32)
    (b : Fin 2) (i j : Fin 512) (q : Fin 32) (r : Fin 128)
    (h0 : ∀ f : Fin 128, x0 (ix3 (0 : Fin 1) q f) = ne (ix3 b i f))
    (h1 : ∀ f : Fin 128, x1 (ix3 (0 : Fin 1) r f) = ne (ix3 b j f))
    (h2 : x2 (ix3 (0 : Fin 1) q r) = eu (ix3 b i j))
    (h3 : ∀ (f : Fin 128) (h : Fin 256), x3 (ix2 f h) = W1 (ix2 (Cert.Spec.rowAt 0 (by omega) f) h))
    (h4 : ∀ (f : Fin 128) (h : Fin 256), x4 (ix2 f h) = W1 (ix2 (Cert.Spec.rowAt 128 (by omega) f) h))
    (h5 : ∀ (f : Fin 128) (h : Fin 256), x5 (ix2 f h) = W1 (ix2 (Cert.Spec.rowAt 256 (by omega) f) h))
    (h6 : ∀ h : Fin 256, x6 (ix2 (0 : Fin 1) h) = W1 (ix2 (⟨384, by omega⟩ : Fin 385) h))
    (h7 : ∀ h : Fin 256, x7 (ix2 (0 : Fin 1) h) = b1 (ix1 h))
    (h8 : ∀ h g : Fin 256, x8 (ix2 h g) = W2 (ix2 h g))
    (h9 : ∀ g : Fin 256, x9 (ix2 (0 : Fin 1) g) = b2 (ix1 g))
    (h10 : ∀ g : Fin 256, x10 (ix2 g (0 : Fin 1)) = W3 (ix2 g (0 : Fin 1)))
    (h11 : x11 (ix2 (0 : Fin 1) (0 : Fin 1)) = b3 (ix1 (0 : Fin 1))) :
    tilePay (F := Ideal) x0 x1 x2 x3 x4 x5 x6 x7 x8 x9 x10 x11 (ix3 (0 : Fin 1) q r)
      = Cert.Spec.pred ne eu W1 b1 W2 b2 W3 b3 b i j := by
  rw [tilePay_apply]
  unfold Cert.Spec.pred
  simp only [h0, h1, h2, h3, h4, h5, h6, h7, h8, h9, h10, h11]

/-! ## The blocks at a grid point

Grid point `t` is a batch `b`, a tile `ii` of 32 first nodes and a tile `jj` of 128 second nodes; the output's block index
at `t` is `(b, ii, jj)`. The i-rows' block sits at `(b, ii, 0)` of the node embeddings, the j-rows' at `(b, jj, 0)`, the
distances' at `(b, ii, jj)`; every other input is staged whole, at block index zero. A block's element sits in its array,
on each axis, at the block index times the block's extent plus the element's coordinate in the block. -/

/-- The index maps of the three moving inputs against the output's, and the output's ranges, decided over the grid. -/
theorem idx_facts : ∀ t : Fin cfg0.N,
    win0_0.index t (0 : Fin 3) = win0_12.index t (0 : Fin 3) ∧ win0_0.index t (1 : Fin 3) = win0_12.index t (1 : Fin 3) ∧ win0_0.index t (2 : Fin 3) = 0
    ∧ win0_1.index t (0 : Fin 3) = win0_12.index t (0 : Fin 3) ∧ win0_1.index t (1 : Fin 3) = win0_12.index t (2 : Fin 3) ∧ win0_1.index t (2 : Fin 3) = 0
    ∧ win0_2.index t (0 : Fin 3) = win0_12.index t (0 : Fin 3) ∧ win0_2.index t (1 : Fin 3) = win0_12.index t (1 : Fin 3) ∧ win0_2.index t (2 : Fin 3) = win0_12.index t (2 : Fin 3)
    ∧ win0_12.index t (0 : Fin 3) ≤ 1 ∧ win0_12.index t (1 : Fin 3) ≤ 15 ∧ win0_12.index t (2 : Fin 3) ≤ 3 :=
  (by decide +kernel : ∀ t : Fin grid0.N, _)

/-- Every block index of the output is some point's. -/
theorem idx_onto : ∀ (q0 : Fin 2) (q1 : Fin 16) (q2 : Fin 4), ∃ t : Fin cfg0.N, win0_12.index t = ![q0.val, q1.val, q2.val] :=
  (by decide +kernel : ∀ (q0 : Fin 2) (q1 : Fin 16) (q2 : Fin 4), ∃ t : Fin grid0.N, win0_12.index t = ![q0.val, q1.val, q2.val])

/-- The i-rows' block: row `q` of the block is row `32·ii + q` of batch `b`'s embeddings. -/
theorem iblk0_apply (c : Dev nD) (t : Fin cfg0.N) (q : Fin 32) (f : Fin 128) (b : Fin 2) (i : Fin 512)
    (hb : b.val = win0_12.index t (0 : Fin 3)) (hi : i.val = win0_12.index t (1 : Fin 3) * 32 + q.val) :
    (iblk m c 0 t : Vec Ideal S1x32x128 .f32) (ix3 (0 : Fin 1) q f)
      = (m ((c : Thread nD τ).loc main_arg0) : FVec Ideal S2x512x128 .f32) (ix3 b i f) := by
  obtain ⟨e00, e01, e02, -⟩ := idx_facts t
  unfold iblk
  rw [View.read_apply]
  show V m c main_arg0 _ = m (c.tc.loc main_arg0) _
  rw [V_arg0]
  congr 1
  funext a
  apply Fin.ext
  match a with
  | ⟨0, _⟩ => show win0_0.index t (0 : Fin 3) * 1 + 1 * 0 = b.val; rw [e00, hb]; omega
  | ⟨1, _⟩ => show win0_0.index t (1 : Fin 3) * 32 + 1 * q.val = i.val; rw [e01, hi]; omega
  | ⟨2, _⟩ => show win0_0.index t (2 : Fin 3) * 128 + 1 * f.val = f.val; rw [e02]; omega

/-- The j-rows' block: row `r` of the block is row `128·jj + r` of batch `b`'s embeddings. -/
theorem iblk1_apply (c : Dev nD) (t : Fin cfg0.N) (r : Fin 128) (f : Fin 128) (b : Fin 2) (j : Fin 512)
    (hb : b.val = win0_12.index t (0 : Fin 3)) (hj : j.val = win0_12.index t (2 : Fin 3) * 128 + r.val) :
    (iblk m c 1 t : Vec Ideal S1x128x128 .f32) (ix3 (0 : Fin 1) r f)
      = (m ((c : Thread nD τ).loc main_arg0) : FVec Ideal S2x512x128 .f32) (ix3 b j f) := by
  obtain ⟨-, -, -, e10, e11, e12, -⟩ := idx_facts t
  unfold iblk
  rw [View.read_apply]
  show V m c main_arg0 _ = m (c.tc.loc main_arg0) _
  rw [V_arg0]
  congr 1
  funext a
  apply Fin.ext
  match a with
  | ⟨0, _⟩ => show win0_1.index t (0 : Fin 3) * 1 + 1 * 0 = b.val; rw [e10, hb]; omega
  | ⟨1, _⟩ => show win0_1.index t (1 : Fin 3) * 128 + 1 * r.val = j.val; rw [e11, hj]; omega
  | ⟨2, _⟩ => show win0_1.index t (2 : Fin 3) * 128 + 1 * f.val = f.val; rw [e12]; omega

/-- The distances' block: entry `(q, r)` of the block is the distance of the pair `(32·ii + q, 128·jj + r)` of batch `b`. -/
theorem iblk2_apply (c : Dev nD) (t : Fin cfg0.N) (q : Fin 32) (r : Fin 128) (b : Fin 2) (i j : Fin 512)
    (hb : b.val = win0_12.index t (0 : Fin 3)) (hi : i.val = win0_12.index t (1 : Fin 3) * 32 + q.val)
    (hj : j.val = win0_12.index t (2 : Fin 3) * 128 + r.val) :
    (iblk m c 2 t : Vec Ideal S1x32x128 .f32) (ix3 (0 : Fin 1) q r)
      = (m ((c : Thread nD τ).loc main_arg2) : FVec Ideal S2x512x512 .f32) (ix3 b i j) := by
  obtain ⟨-, -, -, -, -, -, e20, e21, e22, -⟩ := idx_facts t
  unfold iblk
  rw [View.read_apply]
  show V m c main_arg2 _ = m (c.tc.loc main_arg2) _
  rw [V_arg2]
  congr 1
  funext a
  apply Fin.ext
  match a with
  | ⟨0, _⟩ => show win0_2.index t (0 : Fin 3) * 1 + 1 * 0 = b.val; rw [e20, hb]; omega
  | ⟨1, _⟩ => show win0_2.index t (1 : Fin 3) * 32 + 1 * q.val = i.val; rw [e21, hi]; omega
  | ⟨2, _⟩ => show win0_2.index t (2 : Fin 3) * 128 + 1 * r.val = j.val; rw [e22, hj]; omega

/-- The first weight slab is staged whole: its block is the array. -/
theorem iblk3_apply (c : Dev nD) (t : Fin cfg0.N) (f : Fin 128) (h : Fin 256) :
    (iblk m c 3 t : Vec Ideal S128x256 .bf16) (ix2 f h) = (V m c main_v1 : FVec Ideal S128x256 .bf16) (ix2 f h) := by
  unfold iblk
  rw [View.read_apply]
  show V m c main_v1 _ = V m c main_v1 _
  congr 1
  funext a
  apply Fin.ext
  match a with
  | ⟨0, _⟩ => show win0_3.index t (0 : Fin 2) * 128 + 1 * f.val = f.val; rw [show win0_3.index t (0 : Fin 2) = 0 from rfl]; omega
  | ⟨1, _⟩ => show win0_3.index t (1 : Fin 2) * 256 + 1 * h.val = h.val; rw [show win0_3.index t (1 : Fin 2) = 0 from rfl]; omega

/-- So is the second slab, -/
theorem iblk4_apply (c : Dev nD) (t : Fin cfg0.N) (f : Fin 128) (h : Fin 256) :
    (iblk m c 4 t : Vec Ideal S128x256 .bf16) (ix2 f h) = (V m c main_v3 : FVec Ideal S128x256 .bf16) (ix2 f h) := by
  unfold iblk
  rw [View.read_apply]
  show V m c main_v3 _ = V m c main_v3 _
  congr 1
  funext a
  apply Fin.ext
  match a with
  | ⟨0, _⟩ => show win0_4.index t (0 : Fin 2) * 128 + 1 * f.val = f.val; rw [show win0_4.index t (0 : Fin 2) = 0 from rfl]; omega
  | ⟨1, _⟩ => show win0_4.index t (1 : Fin 2) * 256 + 1 * h.val = h.val; rw [show win0_4.index t (1 : Fin 2) = 0 from rfl]; omega

/-- the third, -/
theorem iblk5_apply (c : Dev nD) (t : Fin cfg0.N) (f : Fin 128) (h : Fin 256) :
    (iblk m c 5 t : Vec Ideal S128x256 .bf16) (ix2 f h) = (V m c main_v5 : FVec Ideal S128x256 .bf16) (ix2 f h) := by
  unfold iblk
  rw [View.read_apply]
  show V m c main_v5 _ = V m c main_v5 _
  congr 1
  funext a
  apply Fin.ext
  match a with
  | ⟨0, _⟩ => show win0_5.index t (0 : Fin 2) * 128 + 1 * f.val = f.val; rw [show win0_5.index t (0 : Fin 2) = 0 from rfl]; omega
  | ⟨1, _⟩ => show win0_5.index t (1 : Fin 2) * 256 + 1 * h.val = h.val; rw [show win0_5.index t (1 : Fin 2) = 0 from rfl]; omega

/-- the last row of the first layer's weights, -/
theorem iblk6_apply (c : Dev nD) (t : Fin cfg0.N) (z : Fin 1) (h : Fin 256) :
    (iblk m c 6 t : Vec Ideal S1x256 .f32) (ix2 z h) = (V m c main_v6 : FVec Ideal S1x256 .f32) (ix2 z h) := by
  unfold iblk
  rw [View.read_apply]
  show V m c main_v6 _ = V m c main_v6 _
  congr 1
  funext a
  apply Fin.ext
  match a with
  | ⟨0, _⟩ => show win0_6.index t (0 : Fin 2) * 1 + 1 * z.val = z.val; rw [show win0_6.index t (0 : Fin 2) = 0 from rfl]; omega
  | ⟨1, _⟩ => show win0_6.index t (1 : Fin 2) * 256 + 1 * h.val = h.val; rw [show win0_6.index t (1 : Fin 2) = 0 from rfl]; omega

/-- the first bias, -/
theorem iblk7_apply (c : Dev nD) (t : Fin cfg0.N) (z : Fin 1) (h : Fin 256) :
    (iblk m c 7 t : Vec Ideal S1x256 .f32) (ix2 z h) = (V m c main_v7 : FVec Ideal S1x256 .f32) (ix2 z h) := by
  unfold iblk
  rw [View.read_apply]
  show V m c main_v7 _ = V m c main_v7 _
  congr 1
  funext a
  apply Fin.ext
  match a with
  | ⟨0, _⟩ => show win0_7.index t (0 : Fin 2) * 1 + 1 * z.val = z.val; rw [show win0_7.index t (0 : Fin 2) = 0 from rfl]; omega
  | ⟨1, _⟩ => show win0_7.index t (1 : Fin 2) * 256 + 1 * h.val = h.val; rw [show win0_7.index t (1 : Fin 2) = 0 from rfl]; omega

/-- the second layer's weights, -/
theorem iblk8_apply (c : Dev nD) (t : Fin cfg0.N) (h : Fin 256) (g : Fin 256) :
    (iblk m c 8 t : Vec Ideal S256x256 .bf16) (ix2 h g) = (V m c main_v9 : FVec Ideal S256x256 .bf16) (ix2 h g) := by
  unfold iblk
  rw [View.read_apply]
  show V m c main_v9 _ = V m c main_v9 _
  congr 1
  funext a
  apply Fin.ext
  match a with
  | ⟨0, _⟩ => show win0_8.index t (0 : Fin 2) * 256 + 1 * h.val = h.val; rw [show win0_8.index t (0 : Fin 2) = 0 from rfl]; omega
  | ⟨1, _⟩ => show win0_8.index t (1 : Fin 2) * 256 + 1 * g.val = g.val; rw [show win0_8.index t (1 : Fin 2) = 0 from rfl]; omega

/-- the second bias, -/
theorem iblk9_apply (c : Dev nD) (t : Fin cfg0.N) (z : Fin 1) (g : Fin 256) :
    (iblk m c 9 t : Vec Ideal S1x256 .f32) (ix2 z g) = (V m c main_v8 : FVec Ideal S1x256 .f32) (ix2 z g) := by
  unfold iblk
  rw [View.read_apply]
  show V m c main_v8 _ = V m c main_v8 _
  congr 1
  funext a
  apply Fin.ext
  match a with
  | ⟨0, _⟩ => show win0_9.index t (0 : Fin 2) * 1 + 1 * z.val = z.val; rw [show win0_9.index t (0 : Fin 2) = 0 from rfl]; omega
  | ⟨1, _⟩ => show win0_9.index t (1 : Fin 2) * 256 + 1 * g.val = g.val; rw [show win0_9.index t (1 : Fin 2) = 0 from rfl]; omega

/-- the last layer's column -/
theorem iblk10_apply (c : Dev nD) (t : Fin cfg0.N) (g : Fin 256) (z : Fin 1) :
    (iblk m c 10 t : Vec Ideal S256x1 .bf16) (ix2 g z) = (V m c main_v10 : FVec Ideal S256x1 .bf16) (ix2 g z) := by
  unfold iblk
  rw [View.read_apply]
  show V m c main_v10 _ = V m c main_v10 _
  congr 1
  funext a
  apply Fin.ext
  match a with
  | ⟨0, _⟩ => show win0_10.index t (0 : Fin 2) * 256 + 1 * g.val = g.val; rw [show win0_10.index t (0 : Fin 2) = 0 from rfl]; omega
  | ⟨1, _⟩ => show win0_10.index t (1 : Fin 2) * 1 + 1 * z.val = z.val; rw [show win0_10.index t (1 : Fin 2) = 0 from rfl]; omega

/-- and the last bias. -/
theorem iblk11_apply (c : Dev nD) (t : Fin cfg0.N) (z : Fin 1) (z' : Fin 1) :
    (iblk m c 11 t : Vec Ideal S1x1 .f32) (ix2 z z') = (V m c main_v11 : FVec Ideal S1x1 .f32) (ix2 z z') := by
  unfold iblk
  rw [View.read_apply]
  show V m c main_v11 _ = V m c main_v11 _
  congr 1
  funext a
  apply Fin.ext
  match a with
  | ⟨0, _⟩ => show win0_11.index t (0 : Fin 2) * 1 + 1 * z.val = z.val; rw [show win0_11.index t (0 : Fin 2) = 0 from rfl]; omega
  | ⟨1, _⟩ => show win0_11.index t (1 : Fin 2) * 1 + 1 * z'.val = z'.val; rw [show win0_11.index t (1 : Fin 2) = 0 from rfl]; omega

/-! ## What a point writes back, and the array after the run -/

/-- The predictions over the whole arrays of the launch. -/
abbrev G (c : Dev nD) : FVec Ideal S2x512x512 .f32 :=
  Cert.Spec.predArr (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8))

/-- What point `t` writes back is block `t` of the predictions. -/
theorem flushed_eq (c : Dev nD) (t : Fin cfg0.N) :
    (dats (F := Ideal) m 0 c).flushed 12 t = ((cfg0.win 12).blk t).view.read (Elt Ideal) (G m c) := by
  show (cfg0.win 12).cut (grid0.coords t) ((dats m 0 c).after 12 t) = _
  rw [after_12, outTile_eq]
  refine funext fun (y : S1x32x128.Idx) => ?_
  obtain ⟨y0, q, r, rfl⟩ : ∃ (y0 : Fin 1) (q : Fin 32) (r : Fin 128), y = ix3 y0 q r := ⟨y 0, y 1, y 2, eq_ix3 y⟩
  obtain rfl : y0 = 0 := Subsingleton.elim _ _
  rw [View.read_apply]
  obtain ⟨-, -, -, -, -, -, -, -, -, l0, l1, l2⟩ := idx_facts t
  have hb : (⟨win0_12.index t (0 : Fin 3), by omega⟩ : Fin 2).val = win0_12.index t (0 : Fin 3) := rfl
  have hi : (⟨win0_12.index t (1 : Fin 3) * 32 + q.val, by have := q.isLt; omega⟩ : Fin 512).val = win0_12.index t (1 : Fin 3) * 32 + q.val := rfl
  have hj : (⟨win0_12.index t (2 : Fin 3) * 128 + r.val, by have := r.isLt; omega⟩ : Fin 512).val = win0_12.index t (2 : Fin 3) * 128 + r.val := rfl
  refine (tile_pred (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    ⟨win0_12.index t (0 : Fin 3), by omega⟩ ⟨win0_12.index t (1 : Fin 3) * 32 + q.val, by have := q.isLt; omega⟩ ⟨win0_12.index t (2 : Fin 3) * 128 + r.val, by have := r.isLt; omega⟩ q r
    (fun f => iblk0_apply m c t q f _ _ hb hi)
    (fun f => iblk1_apply m c t r f _ _ hb hj)
    (iblk2_apply m c t q r _ _ _ hb hi hj)
    (fun f h => (iblk3_apply m c t f h).trans (V_v1_apply m c f h))
    (fun f h => (iblk4_apply m c t f h).trans (V_v3_apply m c f h))
    (fun f h => (iblk5_apply m c t f h).trans (V_v5_apply m c f h))
    (fun h => (iblk6_apply m c t 0 h).trans (V_v6_apply m c h))
    (fun h => (iblk7_apply m c t 0 h).trans (V_v7_apply m c h))
    (fun h g => (iblk8_apply m c t h g).trans (V_v9_apply m c h g))
    (fun g => (iblk9_apply m c t 0 g).trans (V_v8_apply m c g))
    (fun g => (iblk10_apply m c t g 0).trans (V_v10_apply m c g))
    ((iblk11_apply m c t 0 0).trans (V_v11_apply m c))).trans ?_
  show Cert.Spec.pred _ _ _ _ _ _ _ _ _ _ _ = Cert.Spec.pred _ _ _ _ _ _ _ _ _ _ _
  congr 1 <;> apply Fin.ext
  · show win0_12.index t (0 : Fin 3) = win0_12.index t (0 : Fin 3) * 1 + 1 * 0; omega
  · show win0_12.index t (1 : Fin 3) * 32 + q.val = win0_12.index t (1 : Fin 3) * 32 + 1 * q.val; omega
  · show win0_12.index t (2 : Fin 3) * 128 + r.val = win0_12.index t (2 : Fin 3) * 128 + 1 * r.val; omega

/-- An index of the output array is in point `t`'s block iff each coordinate is in the block's range on its axis. -/
theorem mem_blk (t : Fin cfg0.N) (i : S2x512x512.Idx) :
    i ∈ ((cfg0.win 12).blk t).view.set ↔ ∀ a : Fin 3, win0_12.index t a * S1x32x128.size a ≤ (i a).val ∧ (i a).val < win0_12.index t a * S1x32x128.size a + S1x32x128.size a := by
  show i ∈ ((View.whole main_v12).slice (win0_12.rect t)).set ↔ _
  rw [View.set_slice_whole, Rect.mem_set_unit]
  exact Iff.rfl

/-- The output's blocks tile its array: the pair `(i, j)` of batch `b` is under the point whose block index is `(b, i / 32, j / 128)`. -/
theorem cover (i : S2x512x512.Idx) : ∃ t : Fin cfg0.N, (cfg0.win 12).flush t = true ∧ i ∈ ((cfg0.win 12).blk t).view.set := by
  have hi0 : (i 0).val < 2 := (i 0).isLt
  have hi1 : (i 1).val < 512 := (i 1).isLt
  have hi2 : (i 2).val < 512 := (i 2).isLt
  obtain ⟨t, ht⟩ := idx_onto ⟨(i 0).val, hi0⟩ ⟨(i 1).val / 32, by omega⟩ ⟨(i 2).val / 128, by omega⟩
  have q0 : win0_12.index t (0 : Fin 3) = (i 0).val := congrFun ht 0
  have q1 : win0_12.index t (1 : Fin 3) = (i 1).val / 32 := congrFun ht 1
  have q2 : win0_12.index t (2 : Fin 3) = (i 2).val / 128 := congrFun ht 2
  refine ⟨t, flush0_12 t, ?_⟩
  rw [mem_blk]
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 32 ≤ (i 1).val ∧ (i 1).val < win0_12.index t (1 : Fin 3) * 32 + 32; omega
  | ⟨2, _⟩ => show win0_12.index t (2 : Fin 3) * 128 ≤ (i 2).val ∧ (i 2).val < win0_12.index t (2 : Fin 3) * 128 + 128; omega

end Cert.KernelIdeal.Hand.Blocks

namespace Cert.KernelIdeal.Hand

open Cert.KernelIdeal Cert.KernelIdeal.Gen
open Idealize.ShloMosaic Idealize.ShloMosaic.TcCoe
open Idealize.SL.Sem

/-- The output array after the run holds the prediction of every pair: every point writes its block of the
    predictions back, and the blocks tile the array. -/
theorem final_out (m : (ℓ : Loc nD τ sig) → Buf (Elt Ideal) ℓ) (c : Dev nD) :
    (dats (F := Ideal) m 0 c).arrAt 12 cfg0.N
      = Cert.Spec.predArr (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) :=
  (dats (F := Ideal) m 0 c).arrAt_eq_of_cover 12 (Blocks.G m c) (fun t _ => Blocks.flushed_eq m c t) Blocks.cover

end Cert.KernelIdeal.Hand

end
-- ==== Proof.KI.Tail.lean ====
/-
  The operations after the kernel region, as one function of the region's result: `0.5 * (X + Xᵀ)` (the transpose
  swaps the two node axes), times `1 - [i = j]` broadcast over the batch. The eighteen operations read the result
  twice (the transpose and the sum) and every other buffer only after writing it, so what the last buffer holds
  afterwards is this term of what the result buffer held before.
-/
import proofs.«177793_j62732292325617_1_alg».proof.Proof.Gen.KernelIdeal.Launch
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- What the last eighteen operations make of the prediction `X`. -/
def tailK (X : (⟨S2x512x512, .f32⟩ : BufTy).Contents (Elt F)) : (⟨S2x512x512, .f32⟩ : BufTy).Contents (Elt F) :=
  mulf (mulf (broadcastInDim S2x512x512 ![] bcast_S_S2x512x512 (constant (F := F) S_ .f32 0x3F000000#32)) (addf X (transpose S2x512x512 [0, 2, 1] X transposes_S2x512x512_S2x512x512_0_2_1))) (broadcastInDim S2x512x512 ![0, 1, 2] bcast_S1x512x512_S2x512x512_0_1_2 (broadcastInDim S1x512x512 ![1, 2] bcast_S512x512_S1x512x512_1_2 (subf (broadcastInDim S512x512 ![] bcast_S_S512x512 (constant (F := F) S_ .f32 0x3F800000#32)) (uitofp (F := F) .f32 (cmpi .eq (addi (iotaInDim S512x512 32 0) (broadcastInDim S512x512 ![] bcast_S_S512x512 (constantI S_ 32 0#32))) (iotaInDim S512x512 32 1))))))

/-- After the eighteen operations the last buffer holds `tailK` of what the region's result buffer held before them. -/
theorem after_tail (W : Valuation τ sig (Elt F)) :
    StableHlo.after hostOps1 W (Proc.devRef .tc main_v27) = tailK (W (Proc.devRef .tc main_v12)) := by
  after_results_simp
  rfl

end Cert.KernelIdeal.Hand

end
-- ==== Proof.RefValue.lean ====
/-
  The reference's value: its run read back one operation at a time, and that the composed term is the specification.
  The prediction (the reference's three-layer perceptron over the concatenated pair features) is read at an index and
  identified with the specification's `predArr`; the operations after it (symmetrise, halve, clear the diagonal) are kept
  as one closed term `tail` of the prediction, never opened here.
-/
import proofs.«177793_j62732292325617_1_alg».proof.Proof.Gen.ReferenceIdeal.Run
import proofs.«177793_j62732292325617_1_alg».proof.Proof.Gen.ReferenceIdeal.Read
import proofs.«177793_j62732292325617_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The operations after the prediction -/

section Tail

variable {F : FTy → Type} [FloatOps F]

/-- What the program does to the prediction `X`: `0.5 * (X + Xᵀ)` (the transpose swaps the two node axes), times
    `1 - [i = j]` broadcast over the batch. -/
def tail (X : (⟨S2x512x512, .f32⟩ : BufTy).Contents (Elt F)) : (⟨S2x512x512, .f32⟩ : BufTy).Contents (Elt F) :=
  mulf (mulf (broadcastInDim S2x512x512 ![] bcast_S_S2x512x512 (constant (F := F) S_ .f32 0x3F000000#32)) (addf X (transpose S2x512x512 [0, 2, 1] X transposes_S2x512x512_S2x512x512_0_2_1))) (broadcastInDim S2x512x512 ![0, 1, 2] bcast_S1x512x512_S2x512x512_0_1_2 (broadcastInDim S1x512x512 ![1, 2] bcast_S512x512_S1x512x512_1_2 (subf (broadcastInDim S512x512 ![] bcast_S_S512x512 (constant (F := F) S_ .f32 0x3F800000#32)) (uitofp (F := F) .f32 (cmpi .eq (addi (iotaInDim S512x512 32 0) (broadcastInDim S512x512 ![] bcast_S_S512x512 (constantI S_ 32 0#32))) (iotaInDim S512x512 32 1))))))

end Tail

/-- The run's result is the tail of the prediction read off the arguments. -/
theorem res_eq_tail (m : (ℓ : Loc nD τ sig) → Buf (Elt Ideal) ℓ) (c : Dev nD) :
    Cert.ReferenceIdeal.Value.res_main_v41 (F := Ideal) m c
      = tail (F := Ideal) (Cert.ReferenceIdeal.Read.val_main_v26 (F := Ideal)
          (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))) := by
  rw [Cert.ReferenceIdeal.Read.val_main_v41_eq]
  rfl

/-! ## The prediction at an index -/

section Pred

open Idealize.ShloMosaic.ValueIdx Cert.ReferenceIdeal.Read

variable (x0 : (⟨S2x512x128, .f32⟩ : BufTy).Contents (Elt Ideal)) (x2 : (⟨S2x512x512, .f32⟩ : BufTy).Contents (Elt Ideal))
  (x3 : (⟨S385x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x1, .f32⟩ : BufTy).Contents (Elt Ideal)) (x8 : (⟨S1, .f32⟩ : BufTy).Contents (Elt Ideal))

/-- Node `i`'s embedding, broadcast over `j`. -/
theorem nodeI_at (b : Fin 2) (i j : Fin 512) (f : Fin 128) :
    val_main_v1 (F := Ideal) x0 (ix4 b i j f) = x0 (ix3 b i f) := by
  rw [val_main_v1_apply, val_main_v0_apply]
  exact congrArg x0 (funext fun a => match a with | ⟨0, _⟩ => rfl | ⟨1, _⟩ => rfl | ⟨2, _⟩ => rfl)

/-- Node `j`'s embedding, broadcast over `i`. -/
theorem nodeJ_at (b : Fin 2) (i j : Fin 512) (f : Fin 128) :
    val_main_v3 (F := Ideal) x0 (ix4 b i j f) = x0 (ix3 b j f) := by
  rw [val_main_v3_apply, val_main_v2_apply]
  exact congrArg x0 (funext fun a => match a with | ⟨0, _⟩ => rfl | ⟨1, _⟩ => rfl | ⟨2, _⟩ => rfl)

/-- The absolute difference of the two embeddings: on the extended reals `|x| = max x (-x)`. -/
theorem absDiff_at (b : Fin 2) (i j : Fin 512) (f : Fin 128) :
    val_main_v9 (F := Ideal) x0 (ix4 b i j f)
      = max (x0 (ix3 b i f) - x0 (ix3 b j f)) (-(x0 (ix3 b i f) - x0 (ix3 b j f))) := by
  rw [val_main_v9_apply, val_main_v8_apply, val_main_v6_apply, val_main_v4_apply, val_main_v7_apply, val_main_v5_apply]
  have ei : idx_main_v4 (idx_main_v6 (ix4 b i j f)) = ix3 b i f :=
    funext fun a => match a with | ⟨0, _⟩ => rfl | ⟨1, _⟩ => rfl | ⟨2, _⟩ => rfl
  have ej : idx_main_v5 (idx_main_v7 (ix4 b i j f)) = ix3 b j f :=
    funext fun a => match a with | ⟨0, _⟩ => rfl | ⟨1, _⟩ => rfl | ⟨2, _⟩ => rfl
  rw [ei, ej]
  rfl

/-- The pair's distance as a one-feature stretch. -/
theorem dist_at (b : Fin 2) (i j : Fin 512) (f : Fin 1) :
    val_main_v10 (F := Ideal) x2 (ix4 b i j f) = x2 (ix3 b i j) := by
  rw [val_main_v10_apply]
  exact congrArg x2 (funext fun a => match a with | ⟨0, _⟩ => rfl | ⟨1, _⟩ => rfl | ⟨2, _⟩ => rfl)

/-- The concatenated features at an index: the piece whose span holds the feature's number. -/
theorem feat_at (b : Fin 2) (i j : Fin 512) (f : Fin 385) :
    val_main_v11 (F := Ideal) x0 x2 (ix4 b i j f) = Cert.Spec.feat x0 x2 b i j f := by
  have hf := f.isLt
  unfold Cert.Spec.feat val_main_v11
  by_cases h0 : f.val < 128
  · rw [dif_pos h0]
    refine (concatenate_apply_piece _ _ _ (ix4 b i j f) 0 (by show (0 : Nat) < 4; omega) S2x512x512x128 (val_main_v1 (F := Ideal) x0) rfl rfl 0 rfl
      (ix4 b i j ⟨f.val, h0⟩) (fun c hc => match c, hc with
        | ⟨0, _⟩, _ => rfl | ⟨1, _⟩, _ => rfl | ⟨2, _⟩, _ => rfl | ⟨3, _⟩, hc => (hc rfl).elim) ?_).trans (nodeI_at x0 b i j _)
    show 0 + f.val = f.val
    omega
  · rw [dif_neg h0]
    by_cases h1 : f.val < 256
    · rw [dif_pos h1]
      refine (concatenate_apply_piece _ _ _ (ix4 b i j f) 1 (by show (1 : Nat) < 4; omega) S2x512x512x128 (val_main_v3 (F := Ideal) x0) rfl rfl 128 rfl
        (ix4 b i j ⟨f.val - 128, by omega⟩) (fun c hc => match c, hc with
          | ⟨0, _⟩, _ => rfl | ⟨1, _⟩, _ => rfl | ⟨2, _⟩, _ => rfl | ⟨3, _⟩, hc => (hc rfl).elim) ?_).trans (nodeJ_at x0 b i j _)
      show 128 + (f.val - 128) = f.val
      omega
    · rw [dif_neg h1]
      by_cases h2 : f.val < 384
      · rw [dif_pos h2]
        refine (concatenate_apply_piece _ _ _ (ix4 b i j f) 2 (by show (2 : Nat) < 4; omega) S2x512x512x128 (val_main_v9 (F := Ideal) x0) rfl rfl 256 rfl
          (ix4 b i j ⟨f.val - 256, by omega⟩) (fun c hc => match c, hc with
            | ⟨0, _⟩, _ => rfl | ⟨1, _⟩, _ => rfl | ⟨2, _⟩, _ => rfl | ⟨3, _⟩, hc => (hc rfl).elim) ?_).trans (absDiff_at x0 b i j _)
        show 256 + (f.val - 256) = f.val
        omega
      · rw [dif_neg h2]
        refine (concatenate_apply_piece _ _ _ (ix4 b i j f) 3 (by show (3 : Nat) < 4; omega) S2x512x512x1 (val_main_v10 (F := Ideal) x2) rfl rfl 384 rfl
          (ix4 b i j ⟨f.val - 384, by omega⟩) (fun c hc => match c, hc with
            | ⟨0, _⟩, _ => rfl | ⟨1, _⟩, _ => rfl | ⟨2, _⟩, _ => rfl | ⟨3, _⟩, hc => (hc rfl).elim) ?_).trans (dist_at x2 b i j _)
        show 384 + (f.val - 384) = f.val
        omega

/-- The first hidden layer at an index: the one sum over 385 features is the four stretches. -/
theorem hid1_at (b : Fin 2) (i j : Fin 512) (h : Fin 256) :
    val_main_v16 (F := Ideal) x0 x2 x3 x4 (ix4 b i j h)
      = Cert.Spec.hid1Of (fun f => x0 (ix3 b i f)) (fun f => x0 (ix3 b j f)) (x2 (ix3 b i j))
          (fun f h => x3 (ix2 (Cert.Spec.rowAt 0 (by omega) f) h)) (fun f h => x3 (ix2 (Cert.Spec.rowAt 128 (by omega) f) h))
          (fun f h => x3 (ix2 (Cert.Spec.rowAt 256 (by omega) f) h)) (fun h => x3 (ix2 (⟨384, by omega⟩ : Fin 385) h))
          (fun h => x4 (ix1 h)) h := by
  rw [val_main_v16_apply, val_main_v15_apply, val_main_v12_apply, val_main_v14_apply, val_main_v13_apply,
    val_main_call0_v0_apply, val_main_call0_cst_apply]
  have el : ∀ k : Fin 385, lidx_main_v12 (ix4 b i j h) k = ix4 b i j k := fun k =>
    funext fun a => match a with | ⟨0, _⟩ => rfl | ⟨1, _⟩ => rfl | ⟨2, _⟩ => rfl | ⟨3, _⟩ => rfl
  have er : ∀ k : Fin 385, ridx_main_v12 (ix4 b i j h) k = ix2 k h := fun k =>
    funext fun a => match a with | ⟨0, _⟩ => rfl | ⟨1, _⟩ => rfl
  have eb : idx_main_v13 (idx_main_v14 (ix4 b i j h)) = ix1 h :=
    funext fun a => match a with | ⟨0, _⟩ => rfl
  simp only [el, er, eb, feat_at]
  rw [Cert.Spec.sum_split]
  unfold Cert.Spec.hid1Of
  rw [Ideal.ofBits_def, Ideal.ofBits_zero_f32]
  rfl

/-- The second hidden layer at an index. -/
theorem hid2_at (b : Fin 2) (i j : Fin 512) (g : Fin 256) :
    val_main_v21 (F := Ideal) x0 x2 x3 x4 x5 x6 (ix4 b i j g)
      = Cert.Spec.hid2Of (fun f => x0 (ix3 b i f)) (fun f => x0 (ix3 b j f)) (x2 (ix3 b i j))
          (fun f h => x3 (ix2 (Cert.Spec.rowAt 0 (by omega) f) h)) (fun f h => x3 (ix2 (Cert.Spec.rowAt 128 (by omega) f) h))
          (fun f h => x3 (ix2 (Cert.Spec.rowAt 256 (by omega) f) h)) (fun h => x3 (ix2 (⟨384, by omega⟩ : Fin 385) h))
          (fun h => x4 (ix1 h)) (fun h g => x5 (ix2 h g)) (fun g => x6 (ix1 g)) g := by
  rw [val_main_v21_apply, val_main_v20_apply, val_main_v17_apply, val_main_v19_apply, val_main_v18_apply,
    val_main_call1_v0_apply, val_main_call1_cst_apply]
  have el : ∀ k : Fin 256, lidx_main_v17 (ix4 b i j g) k = ix4 b i j k := fun k =>
    funext fun a => match a with | ⟨0, _⟩ => rfl | ⟨1, _⟩ => rfl | ⟨2, _⟩ => rfl | ⟨3, _⟩ => rfl
  have er : ∀ k : Fin 256, ridx_main_v17 (ix4 b i j g) k = ix2 k g := fun k =>
    funext fun a => match a with | ⟨0, _⟩ => rfl | ⟨1, _⟩ => rfl
  have eb : idx_main_v18 (idx_main_v19 (ix4 b i j g)) = ix1 g :=
    funext fun a => match a with | ⟨0, _⟩ => rfl
  simp only [el, er, eb, hid1_at]
  unfold Cert.Spec.hid2Of
  rw [Ideal.ofBits_def, Ideal.ofBits_zero_f32]
  rfl

/-- The prediction at an index: the last layer, and the reshape that drops its unit axis. -/
theorem pred_at (b : Fin 2) (i j : Fin 512) :
    val_main_v26 (F := Ideal) x0 x2 x3 x4 x5 x6 x7 x8 (ix3 b i j) = Cert.Spec.pred x0 x2 x3 x4 x5 x6 x7 x8 b i j := by
  have hb := b.isLt
  have hi := i.isLt
  have hj := j.isLt
  rw [val_main_v26_apply]
  have e26 : idx_main_v26 (ix3 b i j) = ix4 b i j (0 : Fin 1) :=
    funext fun a => match a with
      | ⟨0, _⟩ => Fin.ext (by show ((b.val * 512 + i.val) * 512 + j.val) / 262144 = b.val; omega)
      | ⟨1, _⟩ => Fin.ext (by show ((b.val * 512 + i.val) * 512 + j.val) / 512 % 512 = i.val; omega)
      | ⟨2, _⟩ => Fin.ext (by show ((b.val * 512 + i.val) * 512 + j.val) / 1 % 512 = j.val; omega)
      | ⟨3, _⟩ => rfl
  rw [e26, val_main_v25_apply, val_main_v22_apply, val_main_v24_apply, val_main_v23_apply]
  have el : ∀ k : Fin 256, lidx_main_v22 (ix4 b i j (0 : Fin 1)) k = ix4 b i j k := fun k =>
    funext fun a => match a with | ⟨0, _⟩ => rfl | ⟨1, _⟩ => rfl | ⟨2, _⟩ => rfl | ⟨3, _⟩ => rfl
  have er : ∀ k : Fin 256, ridx_main_v22 (ix4 b i j (0 : Fin 1)) k = ix2 k (0 : Fin 1) := fun k =>
    funext fun a => match a with | ⟨0, _⟩ => rfl | ⟨1, _⟩ => rfl
  have eb : idx_main_v23 (idx_main_v24 (ix4 b i j (0 : Fin 1))) = ix1 (0 : Fin 1) :=
    funext fun a => match a with | ⟨0, _⟩ => rfl
  simp only [el, er, eb, hid2_at]
  rfl

/-- The reference's prediction is the specification's, as arrays. -/
theorem pred_eq :
    val_main_v26 (F := Ideal) x0 x2 x3 x4 x5 x6 x7 x8 = Cert.Spec.predArr x0 x2 x3 x4 x5 x6 x7 x8 := by
  funext y
  obtain ⟨b, i, j, rfl⟩ : ∃ (b : Fin 2) (i j : Fin 512), y = ix3 b i j := ⟨y 0, y 1, y 2, eq_ix3 y⟩
  exact pred_at x0 x2 x3 x4 x5 x6 x7 x8 b i j

end Pred

end Cert.ReferenceIdeal.RefValue

end
-- ==== Proof.TailEq.lean ====
/-
  The two programs apply the same operations to the prediction: the kernel's program after its region, the reference
  after its reshape. The two terms differ only in which program's names spell the same literal shapes and the same
  (proof-irrelevant) shape evidence, so they are one function.
-/
import proofs.«177793_j62732292325617_1_alg».proof.Proof.KI.Tail
import proofs.«177793_j62732292325617_1_alg».proof.Proof.RefValue

set_option maxRecDepth 16384

noncomputable section

namespace Cert.Hand

open Idealize.ShloMosaic

/-- The kernel program's tail and the reference's are the same function of the prediction, for any float values. -/
theorem tail_eq {F : FTy → Type} [FloatOps F] (X : (⟨Cert.ReferenceIdeal.S2x512x512, .f32⟩ : BufTy).Contents (Elt F)) :
    Cert.KernelIdeal.Hand.tailK (F := F) X = Cert.ReferenceIdeal.RefValue.tail (F := F) X := by
  unfold Cert.KernelIdeal.Hand.tailK Cert.ReferenceIdeal.RefValue.tail
  rfl

end Cert.Hand

end
-- ==== Proof.lean ====
/-
  The certificate. Both programs compute, for every batch and every pair of nodes, a three-layer perceptron of the pair's
  385 features (the two nodes' embeddings, the absolute value of their difference, the pair's distance), then symmetrise the
  predictions and zero the diagonal. The kernel never forms the feature vector: its first layer is the sum of four partial
  products, one per stretch of the weight matrix's rows; the reference contracts all 385 features at once. On the extended
  reals the two are one function — a finite sum in a commutative monoid splits along a cut of its index range — and every
  later operation is the same on both sides, the change of float format the identity; no finiteness of the inputs is used.
  The frames: each program's run terminates, faults nowhere and leaves its arguments as launched — the kernel's programs by
  the pipeline's launch over the three segments of @main (host operations, the region, host operations), two of whose
  windows read one array at half shares; the reference's by its run read back. Nothing was rewritten by the idealization.
-/
import proofs.«177793_j62732292325617_1_alg».proof.Defs
import proofs.«177793_j62732292325617_1_alg».proof.Proof.Gen.Kernel
import proofs.«177793_j62732292325617_1_alg».proof.Proof.Gen.KernelIdeal
import proofs.«177793_j62732292325617_1_alg».proof.Proof.Gen.ReferenceIdeal
import proofs.«177793_j62732292325617_1_alg».proof.Proof.Gen.Pre_finite_inputs
import proofs.«177793_j62732292325617_1_alg».proof.Proof.K.Launch
import proofs.«177793_j62732292325617_1_alg».proof.Proof.KI.Launch
import proofs.«177793_j62732292325617_1_alg».proof.Proof.KI.Blocks
import proofs.«177793_j62732292325617_1_alg».proof.Proof.KI.Tail
import proofs.«177793_j62732292325617_1_alg».proof.Proof.RefValue
import proofs.«177793_j62732292325617_1_alg».proof.Proof.TailEq
import Idealize.ShloMosaic.Adequacy
import Idealize.ShloMosaic.Init

noncomputable section

namespace Cert.Proof

open Idealize.ShloMosaic Idealize.ShloMosaic.TcCoe Idealize.SL.Sem

/-- The word-level kernel's frame. -/
theorem frame_k : Cert.frame_Kernel := fun m ρ _ => Cert.Kernel.Hand.frame (F := Bits) m ρ

/-- The idealized kernel's frame. -/
theorem frame_ki : Cert.frame_KernelIdeal := fun m ρ _ => Cert.KernelIdeal.Hand.frame (F := Ideal) m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the symmetrised, diagonal-free predictions of the same perceptron of the same arguments. -/
theorem algebraic : Cert.algebraic_KernelIdeal_ReferenceIdeal := by
  intro m ρ m' ρ' _ hagree
  refine ⟨fun c => Cert.ReferenceIdeal.RefValue.tail (F := Ideal) (Cert.Spec.predArr
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))), ?_, ?_⟩
  · refine (θ_run Cert.KernelIdeal.defs _ _).mono (fun r h c => ⟨?_, (h c).2⟩) (Cert.KernelIdeal.Hand.run_main (F := Ideal) m ρ)
    rw [(h c).1, Cert.KernelIdeal.Hand.after_tail, Cert.KernelIdeal.Hand.V1_out]
    unfold Cert.KernelIdeal.Hand.outArr
    rw [Cert.KernelIdeal.Hand.final_out, Cert.Hand.tail_eq]
  · refine (θ_run Cert.ReferenceIdeal.defs _ _).mono (fun r h c => ⟨?_, (h c).2⟩) (Cert.ReferenceIdeal.Value.run (F := Ideal) m' ρ')
    rw [(h c).1, Cert.ReferenceIdeal.RefValue.res_eq_tail, Cert.ReferenceIdeal.RefValue.pred_eq,
      (hagree c).1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
